-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel

variable [Facts]

def fn {F : FTy → Type} [FloatOps F] (main_arg0 : FVec F S131072x10 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  main_v3
-- ==== Kernel.lean ====
abbrev S131072x10 : Shape := ⟨2, ![131072, 10]⟩
abbrev S1x1024 : Shape := ⟨2, ![1, 1024]⟩
abbrev S2048x10 : Shape := ⟨2, ![2048, 10]⟩
abbrev S2048x1 : Shape := ⟨2, ![2048, 1]⟩
abbrev S2048x2 : Shape := ⟨2, ![2048, 2]⟩
abbrev S2048x4 : Shape := ⟨2, ![2048, 4]⟩
abbrev S2048x8 : Shape := ⟨2, ![2048, 8]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S2048x256 : Shape := ⟨2, ![2048, 256]⟩
abbrev S2048x512 : Shape := ⟨2, ![2048, 512]⟩
abbrev S2048x1024 : Shape := ⟨2, ![2048, 1024]⟩
abbrev S1024 : Shape := ⟨1, ![1024]⟩
abbrev S_ : Shape := ⟨0, ![]⟩

abbrev nBuf : Space → Nat
  | .hbm => 19
  | .vmem => 4
  | .smem => 0
  | _ => 0

abbrev bufTy : (tb : Table) → Fin (tcTables nBuf tb) → BufTy
  | .hbm, ⟨0, _⟩ => ⟨S131072x10, .f32⟩
  | .hbm, ⟨1, _⟩ => ⟨S1x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2048x10, .f32⟩
  | .local _ .vmem, ⟨1, _⟩ => ⟨S2048x10, .f32⟩
  | .local _ .vmem, ⟨2, _⟩ => ⟨S1x1024, .f32⟩
  | .local _ .vmem, ⟨3, _⟩ => ⟨S1x1024, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v88 : BitVec 1 := Scalar.cmpi .eq arg0 c63_i32
  let v89 : BitVec 32 := Scalar.extui v88
  let c0_i32_16 : BitVec 32 := 0#32
  let v90 : BitVec 1 := Scalar.cmpi .ne v89 c0_i32_16
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x10_S2048x10_0_0 : ∀ a, (![0, 0] : Fin 2 → Nat) a + S2048x10.size a ≤ S2048x10.size a
  h_S2048x10 : 0 < S2048x10.numel
  slices_S2048x10_o0_0_S2048x1 : S2048x10.Slices ![0, 0] S2048x1
  concatenates_S2048x1_S2048x1_S2048x2_d1 : Shape.Concatenates [S2048x1, S2048x1] S2048x2 1
  slices_S2048x10_o0_1_S2048x1 : S2048x10.Slices ![0, 1] S2048x1
  broadcasts_S2048x1_S2048x2 : S2048x1.Broadcasts S2048x2
  concatenates_S2048x2_S2048x2_S2048x4_d1 : Shape.Concatenates [S2048x2, S2048x2] S2048x4 1
  slices_S2048x10_o0_2_S2048x1 : S2048x10.Slices ![0, 2] S2048x1
  broadcasts_S2048x1_S2048x4 : S2048x1.Broadcasts S2048x4
  concatenates_S2048x4_S2048x4_S2048x8_d1 : Shape.Concatenates [S2048x4, S2048x4] S2048x8 1
  slices_S2048x10_o0_3_S2048x1 : S2048x10.Slices ![0, 3] S2048x1
  broadcasts_S2048x1_S2048x8 : S2048x1.Broadcasts S2048x8
  concatenates_S2048x8_S2048x8_S2048x16_d1 : Shape.Concatenates [S2048x8, S2048x8] S2048x16 1
  slices_S2048x10_o0_4_S2048x1 : S2048x10.Slices ![0, 4] S2048x1
  broadcasts_S2048x1_S2048x16 : S2048x1.Broadcasts S2048x16
  concatenates_S2048x16_S2048x16_S2048x32_d1 : Shape.Concatenates [S2048x16, S2048x16] S2048x32 1
  slices_S2048x10_o0_5_S2048x1 : S2048x10.Slices ![0, 5] S2048x1
  broadcasts_S2048x1_S2048x32 : S2048x1.Broadcasts S2048x32
  concatenates_S2048x32_S2048x32_S2048x64_d1 : Shape.Concatenates [S2048x32, S2048x32] S2048x64 1
  slices_S2048x10_o0_6_S2048x1 : S2048x10.Slices ![0, 6] S2048x1
  broadcasts_S2048x1_S2048x64 : S2048x1.Broadcasts S2048x64
  concatenates_S2048x64_S2048x64_S2048x128_d1 : Shape.Concatenates [S2048x64, S2048x64] S2048x128 1
  slices_S2048x10_o0_7_S2048x1 : S2048x10.Slices ![0, 7] S2048x1
  broadcasts_S2048x1_S2048x128 : S2048x1.Broadcasts S2048x128
  concatenates_S2048x128_S2048x128_S2048x256_d1 : Shape.Concatenates [S2048x128, S2048x128] S2048x256 1
  slices_S2048x10_o0_8_S2048x1 : S2048x10.Slices ![0, 8] S2048x1
  broadcasts_S2048x1_S2048x256 : S2048x1.Broadcasts S2048x256
  concatenates_S2048x256_S2048x256_S2048x512_d1 : Shape.Concatenates [S2048x256, S2048x256] S2048x512 1
  slices_S2048x10_o0_9_S2048x1 : S2048x10.Slices ![0, 9] S2048x1
  broadcasts_S2048x1_S2048x512 : S2048x1.Broadcasts S2048x512
  concatenates_S2048x512_S2048x512_S2048x1024_d1 : Shape.Concatenates [S2048x512, S2048x512] S2048x1024 1
  reduces_S2048x1024_S1024 : S2048x1024.Reduces [0] S1024
  shapeCasts_S1024_S1x1024 : S1024.ShapeCasts S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S131072x10.size a
  hwx0_0 : ∀ i : grid0.Coords, EltTy.bits .f32 = 32 ∨ (Rect.block (s := S131072x10) S2048x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev win0_0 : Pipeline.Window sig grid0 :=
  Pipeline.Window.ofSpec (Memref.whole main_arg0) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S131072x10 : Shape := ⟨2, ![131072, 10]⟩
abbrev S_ : Shape := ⟨0, ![]⟩
abbrev S131072x10x1 : Shape := ⟨3, ![131072, 10, 1]⟩
abbrev S131072x10x2 : Shape := ⟨3, ![131072, 10, 2]⟩
abbrev S131072x1x2 : Shape := ⟨3, ![131072, 1, 2]⟩
abbrev S131072x2 : Shape := ⟨2, ![131072, 2]⟩
abbrev S131072x2x1 : Shape := ⟨3, ![131072, 2, 1]⟩
abbrev S131072x2x2 : Shape := ⟨3, ![131072, 2, 2]⟩
abbrev S131072x4 : Shape := ⟨2, ![131072, 4]⟩
abbrev S131072x4x1 : Shape := ⟨3, ![131072, 4, 1]⟩
abbrev S131072x4x2 : Shape := ⟨3, ![131072, 4, 2]⟩
abbrev S131072x8 : Shape := ⟨2, ![131072, 8]⟩
abbrev S131072x8x1 : Shape := ⟨3, ![131072, 8, 1]⟩
abbrev S131072x8x2 : Shape := ⟨3, ![131072, 8, 2]⟩
abbrev S131072x16 : Shape := ⟨2, ![131072, 16]⟩
abbrev S131072x16x1 : Shape := ⟨3, ![131072, 16, 1]⟩
abbrev S131072x16x2 : Shape := ⟨3, ![131072, 16, 2]⟩
abbrev S131072x32 : Shape := ⟨2, ![131072, 32]⟩
abbrev S131072x32x1 : Shape := ⟨3, ![131072, 32, 1]⟩
abbrev S131072x32x2 : Shape := ⟨3, ![131072, 32, 2]⟩
abbrev S131072x64 : Shape := ⟨2, ![131072, 64]⟩
abbrev S131072x64x1 : Shape := ⟨3, ![131072, 64, 1]⟩
abbrev S131072x64x2 : Shape := ⟨3, ![131072, 64, 2]⟩
abbrev S131072x128 : Shape := ⟨2, ![131072, 128]⟩
abbrev S131072x128x1 : Shape := ⟨3, ![131072, 128, 1]⟩
abbrev S131072x128x2 : Shape := ⟨3, ![131072, 128, 2]⟩
abbrev S131072x256 : Shape := ⟨2, ![131072, 256]⟩
abbrev S131072x256x1 : Shape := ⟨3, ![131072, 256, 1]⟩
abbrev S131072x256x2 : Shape := ⟨3, ![131072, 256, 2]⟩
abbrev S131072x512 : Shape := ⟨2, ![131072, 512]⟩
abbrev S131072x512x1 : Shape := ⟨3, ![131072, 512, 1]⟩
abbrev S131072x512x2 : Shape := ⟨3, ![131072, 512, 2]⟩
abbrev S131072x1024 : Shape := ⟨2, ![131072, 1024]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S_, .f32⟩
  | .hbm, ⟨2, _⟩ => ⟨S131072x10, .f32⟩
  | .hbm, ⟨3, _⟩ => ⟨S131072x10, .f32⟩
  | .hbm, ⟨4, _⟩ => ⟨S131072x10x1, .f32⟩
  | .hbm, ⟨5, _⟩ => ⟨S131072x10x1, .f32⟩
  | .hbm, ⟨6, _⟩ => ⟨S131072x10x2, .f32⟩
  | .hbm, ⟨7, _⟩ => ⟨S131072x1x2, .f32⟩
  | .hbm, ⟨8, _⟩ => ⟨S131072x2, .f32⟩
  | .hbm, ⟨9, _⟩ => ⟨S131072x2x1, .f32⟩
  | .hbm, ⟨10, _⟩ => ⟨S131072x1x2, .f32⟩
  | .hbm, ⟨11, _⟩ => ⟨S131072x2, .f32⟩
  | .hbm, ⟨12, _⟩ => ⟨S131072x1x2, .f32⟩
  | .hbm, ⟨13, _⟩ => ⟨S131072x2x2, .f32⟩
  | .hbm, ⟨14, _⟩ => ⟨S131072x2x2, .f32⟩
  | .hbm, ⟨15, _⟩ => ⟨S131072x2x2, .f32⟩
  | .hbm, ⟨16, _⟩ => ⟨S131072x4, .f32⟩
  | .hbm, ⟨17, _⟩ => ⟨S131072x4x1, .f32⟩
  | .hbm, ⟨18, _⟩ => ⟨S131072x1x2, .f32⟩
  | .hbm, ⟨19, _⟩ => ⟨S131072x2, .f32⟩
  | .hbm, ⟨20, _⟩ => ⟨S131072x1x2, .f32⟩
  | .hbm, ⟨21, _⟩ => ⟨S131072x4x2, .f32⟩
  | .hbm, ⟨22, _⟩ => ⟨S131072x4x2, .f32⟩
  | .hbm, ⟨23, _⟩ => ⟨S131072x4x2, .f32⟩
  | .hbm, ⟨24, _⟩ => ⟨S131072x8, .f32⟩
  | .hbm, ⟨25, _⟩ => ⟨S131072x8x1, .f32⟩
  | .hbm, ⟨26, _⟩ => ⟨S131072x1x2, .f32⟩
  | .hbm, ⟨27, _⟩ => ⟨S131072x2, .f32⟩
  | .hbm, ⟨28, _⟩ => ⟨S131072x1x2, .f32⟩
  | .hbm, ⟨29, _⟩ => ⟨S131072x8x2, .f32⟩
  | .hbm, ⟨30, _⟩ => ⟨S131072x8x2, .f32⟩
  | .hbm, ⟨31, _⟩ => ⟨S131072x8x2, .f32⟩
  | .hbm, ⟨32, _⟩ => ⟨S131072x16, .f32⟩
  | .hbm, ⟨33, _⟩ => ⟨S131072x16x1, .f32⟩
  | .hbm, ⟨34, _⟩ => ⟨S131072x1x2, .f32⟩
  | .hbm, ⟨35, _⟩ => ⟨S131072x2, .f32⟩
  | .hbm, ⟨36, _⟩ => ⟨S131072x1x2, .f32⟩
  | .hbm, ⟨37, _⟩ => ⟨S131072x16x2, .f32⟩
  | .hbm, ⟨38, _⟩ => ⟨S131072x16x2, .f32⟩
  | .hbm, ⟨39, _⟩ => ⟨S131072x16x2, .f32⟩
  | .hbm, ⟨40, _⟩ => ⟨S131072x32, .f32⟩
  | .hbm, ⟨41, _⟩ => ⟨S131072x32x1, .f32⟩
  | .hbm, ⟨42, _⟩ => ⟨S131072x1x2, .f32⟩
  | .hbm, ⟨43, _⟩ => ⟨S131072x2, .f32⟩
  | .hbm, ⟨44, _⟩ => ⟨S131072x1x2, .f32⟩
  | .hbm, ⟨45, _⟩ => ⟨S131072x32x2, .f32⟩
  | .hbm, ⟨46, _⟩ => ⟨S131072x32x2, .f32⟩
  | .hbm, ⟨47, _⟩ => ⟨S131072x32x2, .f32⟩
  | .hbm, ⟨48, _⟩ => ⟨S131072x64, .f32⟩
  | .hbm, ⟨49, _⟩ => ⟨S131072x64x1, .f32⟩
  | .hbm, ⟨50, _⟩ => ⟨S131072x1x2, .f32⟩
  | .hbm, ⟨51, _⟩ => ⟨S131072x2, .f32⟩
  | .hbm, ⟨52, _⟩ => ⟨S131072x1x2, .f32⟩
  | .hbm, ⟨53, _⟩ => ⟨S131072x64x2, .f32⟩
  | .hbm, ⟨54, _⟩ => ⟨S131072x64x2, .f32⟩
  | .hbm, ⟨55, _⟩ => ⟨S131072x64x2, .f32⟩
  | .hbm, ⟨56, _⟩ => ⟨S131072x128, .f32⟩
  | .hbm, ⟨57, _⟩ => ⟨S131072x128x1, .f32⟩
  | .hbm, ⟨58, _⟩ => ⟨S131072x1x2, .f32⟩
  | .hbm, ⟨59, _⟩ => ⟨S131072x2, .f32⟩
  | .hbm, ⟨60, _⟩ => ⟨S131072x1x2, .f32⟩
  | .hbm, ⟨61, _⟩ => ⟨S131072x128x2, .f32⟩
  | .hbm, ⟨62, _⟩ => ⟨S131072x128x2, .f32⟩
  | .hbm, ⟨63, _⟩ => ⟨S131072x128x2, .f32⟩
  | .hbm, ⟨64, _⟩ => ⟨S131072x256, .f32⟩
  | .hbm, ⟨65, _⟩ => ⟨S131072x256x1, .f32⟩
  | .hbm, ⟨66, _⟩ => ⟨S131072x1x2, .f32⟩
  | .hbm, ⟨67, _⟩ => ⟨S131072x2, .f32⟩
  | .hbm, ⟨68, _⟩ => ⟨S131072x1x2, .f32⟩
  | .hbm, ⟨69, _⟩ => ⟨S131072x256x2, .f32⟩
  | .hbm, ⟨70, _⟩ => ⟨S131072x256x2, .f32⟩
  | .hbm, ⟨71, _⟩ => ⟨S131072x256x2, .f32⟩
  | .hbm, ⟨72, _⟩ => ⟨S131072x512, .f32⟩
  | .hbm, ⟨73, _⟩ => ⟨S131072x512x1, .f32⟩
  | .hbm, ⟨74, _⟩ => ⟨S131072x1x2, .f32⟩
  | .hbm, ⟨75, _⟩ => ⟨S131072x2, .f32⟩
  | .hbm, ⟨76, _⟩ => ⟨S131072x1x2, .f32⟩
  | .hbm, ⟨77, _⟩ => ⟨S131072x512x2, .f32⟩
  | .hbm, ⟨78, _⟩ => ⟨S131072x512x2, .f32⟩
  | .hbm, ⟨79, _⟩ => ⟨S131072x512x2, .f32⟩
  | .hbm, ⟨80, _⟩ => ⟨S131072x1024, .f32⟩
  | .hbm, ⟨81, _⟩ => ⟨S_, .f32⟩
  | .hbm, ⟨82, _⟩ => ⟨S1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_cst_0 : Ref sig .tc := ⟨.hbm, 81, rfl⟩
abbrev main_v79 : Ref sig .tc := ⟨.hbm, 82, rfl⟩
abbrev main_cst_1 : Ref sig .tc := ⟨.hbm, 83, rfl⟩
abbrev main_v80 : Ref sig .tc := ⟨.hbm, 84, rfl⟩
abbrev main_v81 : Ref sig .tc := ⟨.hbm, 85, rfl⟩
abbrev main_cst_2 : Ref sig .tc := ⟨.hbm, 86, rfl⟩
abbrev main_call0_v0 : Ref sig .tc := ⟨.hbm, 87, rfl⟩
abbrev main_call0_v1 : Ref sig .tc := ⟨.hbm, 88, rfl⟩
abbrev main_v82 : Ref sig .tc := ⟨.hbm, 89, rfl⟩
abbrev main_v83 : Ref sig .tc := ⟨.hbm, 90, rfl⟩
abbrev main_cst_3 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_cst_4 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩

abbrev nD : Nat := 1
abbrev τ : Topo := Topo.v7x

variable {F : FTy → Type} [FloatOps F]

class Facts₀ : Prop where
  bcast_S_S131072x10 : S_.BroadcastsInDim S131072x10 (![] : Fin 0 → Fin S131072x10.rank)
  bcast_S131072x10_S131072x10x1_0_1 : S131072x10.BroadcastsInDim S131072x10x1 (![0, 1] : Fin 2 → Fin S131072x10x1.rank)
  concatenates_S131072x10x1_S131072x10x1_S131072x10x2_d2 : Shape.Concatenates [S131072x10x1, S131072x10x1] S131072x10x2 2
  slices_S131072x10x2_S131072x1x2_0_0_0 : S131072x10x2.Slices ![0, 0, 0] S131072x1x2
  shapeCasts_S131072x1x2_S131072x2 : S131072x1x2.ShapeCasts S131072x2
  bcast_S131072x2_S131072x2x1_0_1 : S131072x2.BroadcastsInDim S131072x2x1 (![0, 1] : Fin 2 → Fin S131072x2x1.rank)
  slices_S131072x10x2_S131072x1x2_0_1_0 : S131072x10x2.Slices ![0, 1, 0] S131072x1x2
  bcast_S131072x2_S131072x1x2_0_2 : S131072x2.BroadcastsInDim S131072x1x2 (![0, 2] : Fin 2 → Fin S131072x1x2.rank)
  bcast_S131072x2x1_S131072x2x2_0_1_2 : S131072x2x1.BroadcastsInDim S131072x2x2 (![0, 1, 2] : Fin 3 → Fin S131072x2x2.rank)
  bcast_S131072x1x2_S131072x2x2_0_1_2 : S131072x1x2.BroadcastsInDim S131072x2x2 (![0, 1, 2] : Fin 3 → Fin S131072x2x2.rank)
  shapeCasts_S131072x2x2_S131072x4 : S131072x2x2.ShapeCasts S131072x4
  bcast_S131072x4_S131072x4x1_0_1 : S131072x4.BroadcastsInDim S131072x4x1 (![0, 1] : Fin 2 → Fin S131072x4x1.rank)
  slices_S131072x10x2_S131072x1x2_0_2_0 : S131072x10x2.Slices ![0, 2, 0] S131072x1x2
  bcast_S131072x4x1_S131072x4x2_0_1_2 : S131072x4x1.BroadcastsInDim S131072x4x2 (![0, 1, 2] : Fin 3 → Fin S131072x4x2.rank)
  bcast_S131072x1x2_S131072x4x2_0_1_2 : S131072x1x2.BroadcastsInDim S131072x4x2 (![0, 1, 2] : Fin 3 → Fin S131072x4x2.rank)
  shapeCasts_S131072x4x2_S131072x8 : S131072x4x2.ShapeCasts S131072x8
  bcast_S131072x8_S131072x8x1_0_1 : S131072x8.BroadcastsInDim S131072x8x1 (![0, 1] : Fin 2 → Fin S131072x8x1.rank)
  slices_S131072x10x2_S131072x1x2_0_3_0 : S131072x10x2.Slices ![0, 3, 0] S131072x1x2
  bcast_S131072x8x1_S131072x8x2_0_1_2 : S131072x8x1.BroadcastsInDim S131072x8x2 (![0, 1, 2] : Fin 3 → Fin S131072x8x2.rank)
  bcast_S131072x1x2_S131072x8x2_0_1_2 : S131072x1x2.BroadcastsInDim S131072x8x2 (![0, 1, 2] : Fin 3 → Fin S131072x8x2.rank)
  shapeCasts_S131072x8x2_S131072x16 : S131072x8x2.ShapeCasts S131072x16
  bcast_S131072x16_S131072x16x1_0_1 : S131072x16.BroadcastsInDim S131072x16x1 (![0, 1] : Fin 2 → Fin S131072x16x1.rank)
  slices_S131072x10x2_S131072x1x2_0_4_0 : S131072x10x2.Slices ![0, 4, 0] S131072x1x2
  bcast_S131072x16x1_S131072x16x2_0_1_2 : S131072x16x1.BroadcastsInDim S131072x16x2 (![0, 1, 2] : Fin 3 → Fin S131072x16x2.rank)
  bcast_S131072x1x2_S131072x16x2_0_1_2 : S131072x1x2.BroadcastsInDim S131072x16x2 (![0, 1, 2] : Fin 3 → Fin S131072x16x2.rank)
  shapeCasts_S131072x16x2_S131072x32 : S131072x16x2.ShapeCasts S131072x32
  bcast_S131072x32_S131072x32x1_0_1 : S131072x32.BroadcastsInDim S131072x32x1 (![0, 1] : Fin 2 → Fin S131072x32x1.rank)
  slices_S131072x10x2_S131072x1x2_0_5_0 : S131072x10x2.Slices ![0, 5, 0] S131072x1x2
  bcast_S131072x32x1_S131072x32x2_0_1_2 : S131072x32x1.BroadcastsInDim S131072x32x2 (![0, 1, 2] : Fin 3 → Fin S131072x32x2.rank)
  bcast_S131072x1x2_S131072x32x2_0_1_2 : S131072x1x2.BroadcastsInDim S131072x32x2 (![0, 1, 2] : Fin 3 → Fin S131072x32x2.rank)
  shapeCasts_S131072x32x2_S131072x64 : S131072x32x2.ShapeCasts S131072x64
  bcast_S131072x64_S131072x64x1_0_1 : S131072x64.BroadcastsInDim S131072x64x1 (![0, 1] : Fin 2 → Fin S131072x64x1.rank)
  slices_S131072x10x2_S131072x1x2_0_6_0 : S131072x10x2.Slices ![0, 6, 0] S131072x1x2
  bcast_S131072x64x1_S131072x64x2_0_1_2 : S131072x64x1.BroadcastsInDim S131072x64x2 (![0, 1, 2] : Fin 3 → Fin S131072x64x2.rank)
  bcast_S131072x1x2_S131072x64x2_0_1_2 : S131072x1x2.BroadcastsInDim S131072x64x2 (![0, 1, 2] : Fin 3 → Fin S131072x64x2.rank)
  shapeCasts_S131072x64x2_S131072x128 : S131072x64x2.ShapeCasts S131072x128
  bcast_S131072x128_S131072x128x1_0_1 : S131072x128.BroadcastsInDim S131072x128x1 (![0, 1] : Fin 2 → Fin S131072x128x1.rank)
  slices_S131072x10x2_S131072x1x2_0_7_0 : S131072x10x2.Slices ![0, 7, 0] S131072x1x2
  bcast_S131072x128x1_S131072x128x2_0_1_2 : S131072x128x1.BroadcastsInDim S131072x128x2 (![0, 1, 2] : Fin 3 → Fin S131072x128x2.rank)
  bcast_S131072x1x2_S131072x128x2_0_1_2 : S131072x1x2.BroadcastsInDim S131072x128x2 (![0, 1, 2] : Fin 3 → Fin S131072x128x2.rank)
  shapeCasts_S131072x128x2_S131072x256 : S131072x128x2.ShapeCasts S131072x256
  bcast_S131072x256_S131072x256x1_0_1 : S131072x256.BroadcastsInDim S131072x256x1 (![0, 1] : Fin 2 → Fin S131072x256x1.rank)
  slices_S131072x10x2_S131072x1x2_0_8_0 : S131072x10x2.Slices ![0, 8, 0] S131072x1x2
  bcast_S131072x256x1_S131072x256x2_0_1_2 : S131072x256x1.BroadcastsInDim S131072x256x2 (![0, 1, 2] : Fin 3 → Fin S131072x256x2.rank)
  bcast_S131072x1x2_S131072x256x2_0_1_2 : S131072x1x2.BroadcastsInDim S131072x256x2 (![0, 1, 2] : Fin 3 → Fin S131072x256x2.rank)
  shapeCasts_S131072x256x2_S131072x512 : S131072x256x2.ShapeCasts S131072x512
  bcast_S131072x512_S131072x512x1_0_1 : S131072x512.BroadcastsInDim S131072x512x1 (![0, 1] : Fin 2 → Fin S131072x512x1.rank)
  slices_S131072x10x2_S131072x1x2_0_9_0 : S131072x10x2.Slices ![0, 9, 0] S131072x1x2
  bcast_S131072x512x1_S131072x512x2_0_1_2 : S131072x512x1.BroadcastsInDim S131072x512x2 (![0, 1, 2] : Fin 3 → Fin S131072x512x2.rank)
  bcast_S131072x1x2_S131072x512x2_0_1_2 : S131072x1x2.BroadcastsInDim S131072x512x2 (![0, 1, 2] : Fin 3 → Fin S131072x512x2.rank)
  shapeCasts_S131072x512x2_S131072x1024 : S131072x512x2.ShapeCasts S131072x1024
  reducesTo_S131072x1024_S1024_d0 : S131072x1024.ReducesTo [0] S1024
  h_S_ : 0 < S_.numel
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.LibStateOrder.lean ====
/-
  Two ways to enumerate the joint states of `R` binary components, and why a sum over all states cannot tell them apart.

  A state of `r + 1` components is a number `j < 2 ^ (r + 1)`. Building the table of products `∏ factor` one
  component at a time, the new component's choice can be recorded in the HIGH binary digit (lay the table for choice 0
  beside the table for choice 1: `hiProd`) or in the LOW digit (split every entry in two: `loProd`). The entry of
  the first table at `j` is the entry of the second at `rev j`, the number with `j`'s binary digits in the opposite
  order (`hiProd_eq_loProd_rev`), and `rev` is a bijection of `[0, 2 ^ n)` (`unrev` undoes it), so any sum of a
  function of the entries over all states is the same for both tables (`sum_rev`): addition in a commutative monoid
  is all that is used.
-/
import Idealize.ShloMosaic.Lib.ValueIdx

open scoped BigOperators

namespace Cert.StateOrder

/-- The number whose `n` low binary digits are those of `j` in the opposite order: the lowest digit of the result is
    `j`'s digit `n - 1`. -/
def rev : ℕ → ℕ → ℕ
  | 0, _ => 0
  | n + 1, j => 2 * rev n (j % 2 ^ n) + j / 2 ^ n

/-- The same reversal computed from the other end: the lowest digit of `s` becomes digit `n - 1`. -/
def unrev : ℕ → ℕ → ℕ
  | 0, _ => 0
  | n + 1, s => (s % 2) * 2 ^ n + unrev n (s / 2)

/-- Doubling and adding a binary digit, undone by halving … -/
theorem two_mul_add_div (R c : ℕ) (hc : c < 2) : (2 * R + c) / 2 = R := by omega
/-- … and the digit is the remainder. -/
theorem two_mul_add_mod (R c : ℕ) (hc : c < 2) : (2 * R + c) % 2 = c := by omega

theorem rev_succ (n j : ℕ) : rev (n + 1) j = 2 * rev n (j % 2 ^ n) + j / 2 ^ n := rfl
theorem unrev_succ (n s : ℕ) : unrev (n + 1) s = (s % 2) * 2 ^ n + unrev n (s / 2) := rfl

theorem rev_lt : ∀ (n j : ℕ), j < 2 ^ n → rev n j < 2 ^ n
  | 0, _, _ => by simp [rev]
  | n + 1, j, hj => by
    have hp : 0 < 2 ^ n := Nat.two_pow_pos n
    have h1 := rev_lt n (j % 2 ^ n) (Nat.mod_lt _ hp)
    have hj' : j < 2 ^ n * 2 := by rwa [pow_succ] at hj
    have h2 : j / 2 ^ n < 2 := (Nat.div_lt_iff_lt_mul hp).2 (by omega)
    rw [rev_succ, pow_succ]
    omega

theorem unrev_lt : ∀ (n s : ℕ), s < 2 ^ n → unrev n s < 2 ^ n
  | 0, _, _ => by simp [unrev]
  | n + 1, s, hs => by
    have hs' : s < 2 ^ n * 2 := by rwa [pow_succ] at hs
    have h1 := unrev_lt n (s / 2) (by omega)
    rw [unrev_succ, pow_succ]
    rcases Nat.mod_two_eq_zero_or_one s with h | h <;> rw [h] <;> omega

/-- Reversing and then reversing from the other end gives the number back. -/
theorem unrev_rev : ∀ (n j : ℕ), j < 2 ^ n → unrev n (rev n j) = j
  | 0, j, hj => by
    have : j = 0 := by simpa using hj
    simp [unrev, this]
  | n + 1, j, hj => by
    have hp : 0 < 2 ^ n := Nat.two_pow_pos n
    have hj' : j < 2 ^ n * 2 := by rwa [pow_succ] at hj
    have h2 : j / 2 ^ n < 2 := (Nat.div_lt_iff_lt_mul hp).2 (by omega)
    have ih := unrev_rev n (j % 2 ^ n) (Nat.mod_lt _ hp)
    have e1 : (2 * rev n (j % 2 ^ n) + j / 2 ^ n) % 2 = j / 2 ^ n := two_mul_add_mod _ _ h2
    have e2 : (2 * rev n (j % 2 ^ n) + j / 2 ^ n) / 2 = rev n (j % 2 ^ n) := two_mul_add_div _ _ h2
    rw [rev_succ, unrev_succ, e1, e2, ih]
    exact Nat.div_add_mod' j (2 ^ n)

theorem rev_unrev : ∀ (n s : ℕ), s < 2 ^ n → rev n (unrev n s) = s
  | 0, s, hs => by
    have : s = 0 := by simpa using hs
    simp [rev, this]
  | n + 1, s, hs => by
    have hp : 0 < 2 ^ n := Nat.two_pow_pos n
    have hs' : s < 2 ^ n * 2 := by rwa [pow_succ] at hs
    have hu := unrev_lt n (s / 2) (by omega)
    have ih := rev_unrev n (s / 2) (by omega)
    have e1 : ((s % 2) * 2 ^ n + unrev n (s / 2)) % 2 ^ n = unrev n (s / 2) := by
      rw [Nat.add_comm, Nat.add_mul_mod_self_right, Nat.mod_eq_of_lt hu]
    have e2 : ((s % 2) * 2 ^ n + unrev n (s / 2)) / 2 ^ n = s % 2 := by
      rw [Nat.add_comm, Nat.add_mul_div_right _ _ hp, Nat.div_eq_of_lt hu, Nat.zero_add]
    rw [unrev_succ, rev_succ, e1, e2, ih]
    omega

/-- A sum over all `n`-digit states does not change when every state is replaced by its reversal. -/
theorem sum_rev {M : Type*} [AddCommMonoid M] (n : ℕ) (f : ℕ → M) :
    ∑ j ∈ Finset.range (2 ^ n), f (rev n j) = ∑ s ∈ Finset.range (2 ^ n), f s :=
  Finset.sum_nbij' (rev n) (unrev n)
    (fun j hj => Finset.mem_range.2 (rev_lt n j (Finset.mem_range.1 hj)))
    (fun s hs => Finset.mem_range.2 (unrev_lt n s (Finset.mem_range.1 hs)))
    (fun j hj => unrev_rev n j (Finset.mem_range.1 hj))
    (fun s hs => rev_unrev n s (Finset.mem_range.1 hs))
    (fun _ _ => rfl)

section Products
variable {M : Type*} [Mul M]

/-- The table of products with each new component's choice in the HIGH digit: component `r` contributes `u r` when its
    digit is 0 and `v r` when it is 1, and the table after component `r + 1` is the old table times `u (r + 1)`
    followed by the old table times `v (r + 1)`. -/
def hiProd (u v : ℕ → M) : ℕ → ℕ → M
  | 0, j => if j = 0 then u 0 else v 0
  | r + 1, j => if j < 2 ^ (r + 1) then hiProd u v r j * u (r + 1) else hiProd u v r (j - 2 ^ (r + 1)) * v (r + 1)

/-- The table of products with each new component's choice in the LOW digit: entry `s` of the table after component
    `r + 1` is entry `s / 2` of the old table times `u (r + 1)` or `v (r + 1)` as `s` is even or odd. -/
def loProd (u v : ℕ → M) : ℕ → ℕ → M
  | 0, s => if s = 0 then u 0 else v 0
  | r + 1, s => loProd u v r (s / 2) * (if s % 2 = 0 then u (r + 1) else v (r + 1))

theorem hiProd_zero (u v : ℕ → M) (j : ℕ) : hiProd u v 0 j = if j = 0 then u 0 else v 0 := rfl
theorem hiProd_succ (u v : ℕ → M) (r j : ℕ) :
    hiProd u v (r + 1) j
      = if j < 2 ^ (r + 1) then hiProd u v r j * u (r + 1) else hiProd u v r (j - 2 ^ (r + 1)) * v (r + 1) := rfl
theorem loProd_zero (u v : ℕ → M) (s : ℕ) : loProd u v 0 s = if s = 0 then u 0 else v 0 := rfl
theorem loProd_succ (u v : ℕ → M) (r s : ℕ) :
    loProd u v (r + 1) s = loProd u v r (s / 2) * (if s % 2 = 0 then u (r + 1) else v (r + 1)) := rfl

/-- The high-digit table at `j` is the low-digit table at `j` reversed: the same factors in the same order, only the
    state's name differs. -/
theorem hiProd_eq_loProd_rev (u v : ℕ → M) : ∀ (r j : ℕ), j < 2 ^ (r + 1) → hiProd u v r j = loProd u v r (rev (r + 1) j)
  | 0, j, _ => by
    have : rev 1 j = j := by simp [rev]
    rw [this]; rfl
  | r + 1, j, hj => by
    have hp : 0 < 2 ^ (r + 1) := Nat.two_pow_pos _
    have hj' : j < 2 ^ (r + 1) * 2 := by rwa [pow_succ] at hj
    rw [hiProd_succ, rev_succ, loProd_succ]
    by_cases h : j < 2 ^ (r + 1)
    · have hd : j / 2 ^ (r + 1) = 0 := Nat.div_eq_of_lt h
      have hm : j % 2 ^ (r + 1) = j := Nat.mod_eq_of_lt h
      have e1 : (2 * rev (r + 1) j + 0) / 2 = rev (r + 1) j := two_mul_add_div _ _ (by decide)
      have e2 : (2 * rev (r + 1) j + 0) % 2 = 0 := two_mul_add_mod _ _ (by decide)
      rw [if_pos h, hd, hm, e1, e2, if_pos rfl, hiProd_eq_loProd_rev u v r j h]
    · have hge : 2 ^ (r + 1) ≤ j := Nat.le_of_not_lt h
      have hd : j / 2 ^ (r + 1) = 1 := Nat.div_eq_of_lt_le (by omega) (by omega)
      have hm : j % 2 ^ (r + 1) = j - 2 ^ (r + 1) := by
        rw [Nat.mod_eq_sub_mod hge, Nat.mod_eq_of_lt (by omega)]
      have e1 : (2 * rev (r + 1) (j - 2 ^ (r + 1)) + 1) / 2 = rev (r + 1) (j - 2 ^ (r + 1)) := two_mul_add_div _ _ (by decide)
      have e2 : (2 * rev (r + 1) (j - 2 ^ (r + 1)) + 1) % 2 = 1 := two_mul_add_mod _ _ (by decide)
      rw [if_neg h, hd, hm, e1, e2, if_neg (by decide), hiProd_eq_loProd_rev u v r (j - 2 ^ (r + 1)) (by omega)]

end Products

/-! ## The factors of one sample

Both programs build a sample's table from the same twenty numbers: for component `r` of row `b` of the activity array,
`unit - a` for choice 0 and `a` for choice 1, where `unit` is what the float word of `1.0` denotes. The word is never
evaluated: both programs subtract from the same one. -/

noncomputable section Factors
open Idealize.ShloMosaic Idealize.ShloMosaic.ValueIdx

/-- What the word `0x3F800000` of the literal `1.0` denotes at the extended reals. -/
def unit : EReal := FloatOps.ofBits (F := Ideal) .f32 0x3F800000#32

/-- Component `r`'s factor for choice 0 in row `b` of an array of `B` rows of ten activities. -/
def fac0 {B : ℕ} (A : (⟨2, ![B, 10]⟩ : Shape).Idx → EReal) (b : Fin B) (r : ℕ) : EReal :=
  if h : r < 10 then unit - A (ix2 b ⟨r, h⟩) else 0

/-- Component `r`'s factor for choice 1 in row `b`. -/
def fac1 {B : ℕ} (A : (⟨2, ![B, 10]⟩ : Shape).Idx → EReal) (b : Fin B) (r : ℕ) : EReal :=
  if h : r < 10 then A (ix2 b ⟨r, h⟩) else 0

theorem fac0_of_lt {B : ℕ} (A : (⟨2, ![B, 10]⟩ : Shape).Idx → EReal) (b : Fin B) (r : ℕ) (h : r < 10) :
    fac0 A b r = unit - A (ix2 b ⟨r, h⟩) := dif_pos h
theorem fac1_of_lt {B : ℕ} (A : (⟨2, ![B, 10]⟩ : Shape).Idx → EReal) (b : Fin B) (r : ℕ) (h : r < 10) :
    fac1 A b r = A (ix2 b ⟨r, h⟩) := dif_pos h

end Factors

end Cert.StateOrder
-- ==== Proof.LaneDoubling.lean ====
/-
  The kernel's block of joint probabilities, read at an index.

  For a tile of 2048 samples the kernel lays out, lane by lane, the table of products of the samples' factors: it starts
  from the two-lane table `[unit - a₀, a₀]` and, for each further component `r`, multiplies the table by the column
  `unit - a_r` and by the column `a_r` and lays the two results side by side. Laying side by side puts the new
  component's choice in the HIGH binary digit of the lane number, so lane `q` of sample `p` holds `hiProd` of the
  sample's factors at `q` (`doubling_hiProd` is one such step at any width, `base_hiProd` the start). Summed over the
  tile's samples and added to what the accumulator held, that is what one grid point leaves in it (`accumulate_apply`).
-/
import proofs.«139507_j57071525430111_1_alg».proof.Proof.Gen.KernelIdeal.Skeleton
import proofs.«139507_j57071525430111_1_alg».proof.Proof.LibStateOrder
import Idealize.ShloMosaic.Lib.Pipeline.Value
import Idealize.ShloMosaic.Lib.ValueIdx
import Idealize.ShloMosaic.PureOps.Ideal.Laws

noncomputable section

open Idealize.ShloMosaic Idealize.ShloMosaic.ValueIdx Cert.StateOrder
open scoped BigOperators

namespace Cert.KernelIdeal.Lanes

open Cert.KernelIdeal Cert.KernelIdeal.Gen

/-- ONE DOUBLING STEP, at any width. If lane `q` of sample `p` of the old table `P` is `hiProd u v r q`, and the column
    `col` holds, for sample `p`, the next component's choice-1 factor `v (r + 1)` (so `one - col` its choice-0 factor
    `u (r + 1)`), then `P · (one - col)` laid beside `P · col` is `hiProd u v (r + 1)`: a lane in the left half reads the
    old lane times the choice-0 factor, a lane in the right half the old lane `q - n` times the choice-1 factor. -/
theorem doubling_hiProd {n m : ℕ} (r : ℕ) (hn : n = 2 ^ (r + 1)) (hm : m = n + n) (u v : ℕ → EReal)
    (P : (⟨2, ![2048, n]⟩ : Shape).Idx → EReal) (col : (⟨2, ![2048, 1]⟩ : Shape).Idx → EReal) (one : EReal)
    (hc : Shape.Concatenates [(⟨2, ![2048, n]⟩ : Shape), (⟨2, ![2048, n]⟩ : Shape)] (⟨2, ![2048, m]⟩ : Shape) 1)
    (hb : (⟨2, ![2048, 1]⟩ : Shape).Broadcasts (⟨2, ![2048, n]⟩ : Shape))
    (p : Fin 2048)
    (hP : ∀ q : Fin n, P (ix2 p q) = hiProd u v r q.val)
    (hu : one - col (ix2 p 0) = u (r + 1)) (hv : col (ix2 p 0) = v (r + 1)) (q : Fin m) :
    concatenate (⟨2, ![2048, m]⟩ : Shape) 1
      [⟨(⟨2, ![2048, n]⟩ : Shape), mulf (F := Ideal) (φ := .f32) P
          (broadcastTo (⟨2, ![2048, n]⟩ : Shape) (subf (F := Ideal) (φ := .f32) (broadcast (⟨2, ![2048, 1]⟩ : Shape) one) col) hb)⟩,
       ⟨(⟨2, ![2048, n]⟩ : Shape), mulf (F := Ideal) (φ := .f32) P (broadcastTo (⟨2, ![2048, n]⟩ : Shape) col hb)⟩] hc (ix2 p q)
      = hiProd u v (r + 1) q.val := by
  subst hn
  subst hm
  have hq := q.isLt
  -- a column broadcast along the lanes reads, at any lane of sample `p`, the column's entry for `p`
  have hcol : ∀ (y : (⟨2, ![2048, 1]⟩ : Shape).Idx → EReal) (j : Fin (2 ^ (r + 1))),
      broadcastTo (⟨2, ![2048, 2 ^ (r + 1)]⟩ : Shape) y hb (ix2 p j) = y (ix2 p 0) := fun y j =>
    broadcastTo_apply y hb (ix2 p j) (ix2 p 0) (fun a => match a with
      | ⟨0, _⟩ => by show p.val = if (2048 : ℕ) = 1 then 0 else p.val; rw [if_neg (by decide)]
      | ⟨1, _⟩ => by show 0 = if (1 : ℕ) = 1 then 0 else j.val; rw [if_pos rfl])
  rw [hiProd_succ]
  by_cases h : q.val < 2 ^ (r + 1)
  · rw [if_pos h, ← hu, ← hP ⟨q.val, h⟩]
    refine (concatenate_pair_apply_left (t := ⟨2, ![2048, 2 ^ (r + 1) + 2 ^ (r + 1)]⟩) (s₁ := ⟨2, ![2048, 2 ^ (r + 1)]⟩)
      (s₂ := ⟨2, ![2048, 2 ^ (r + 1)]⟩) (1 : Fin 2) _ _ hc (ix2 p q) rfl (ix2 p ⟨q.val, h⟩)
      (fun b => match b with | ⟨0, _⟩ => rfl | ⟨1, _⟩ => rfl)).trans ?_
    show P (ix2 p ⟨q.val, h⟩) * broadcastTo _ _ hb (ix2 p ⟨q.val, h⟩) = _
    rw [hcol]; rfl
  · rw [if_neg h, ← hv, ← hP ⟨q.val - 2 ^ (r + 1), by omega⟩]
    refine (concatenate_pair_apply_right (t := ⟨2, ![2048, 2 ^ (r + 1) + 2 ^ (r + 1)]⟩) (s₁ := ⟨2, ![2048, 2 ^ (r + 1)]⟩)
      (s₂ := ⟨2, ![2048, 2 ^ (r + 1)]⟩) (1 : Fin 2) _ _ hc (ix2 p q) rfl rfl (ix2 p ⟨q.val - 2 ^ (r + 1), by omega⟩)
      (fun b hb' => match b, hb' with | ⟨0, _⟩, _ => rfl | ⟨1, _⟩, hb' => absurd rfl hb') ?_).trans ?_
    · show q.val - 2 ^ (r + 1) + 2 ^ (r + 1) = q.val; omega
    · show P _ * broadcastTo _ _ hb _ = _
      rw [hcol]

/-- THE START: `one - col` beside `col` is the two-lane table of the first component. -/
theorem base_hiProd (u v : ℕ → EReal) (col : (⟨2, ![2048, 1]⟩ : Shape).Idx → EReal) (one : EReal)
    (hc : Shape.Concatenates [(⟨2, ![2048, 1]⟩ : Shape), (⟨2, ![2048, 1]⟩ : Shape)] (⟨2, ![2048, 2]⟩ : Shape) 1)
    (p : Fin 2048) (hu : one - col (ix2 p 0) = u 0) (hv : col (ix2 p 0) = v 0) (q : Fin 2) :
    concatenate (⟨2, ![2048, 2]⟩ : Shape) 1
      [⟨(⟨2, ![2048, 1]⟩ : Shape), subf (F := Ideal) (φ := .f32) (broadcast (⟨2, ![2048, 1]⟩ : Shape) one) col⟩,
       ⟨(⟨2, ![2048, 1]⟩ : Shape), col⟩] hc (ix2 p q)
      = hiProd u v 0 q.val := by
  have hq := q.isLt
  rw [hiProd_zero]
  by_cases h : q.val = 0
  · rw [if_pos h, ← hu]
    exact concatenate_pair_apply_left (t := ⟨2, ![2048, 2]⟩) (s₁ := ⟨2, ![2048, 1]⟩) (s₂ := ⟨2, ![2048, 1]⟩) (1 : Fin 2) _ _ hc
      (ix2 p q) rfl (ix2 p 0) (fun b => match b with | ⟨0, _⟩ => rfl | ⟨1, _⟩ => by show (0 : ℕ) = q.val; omega)
  · rw [if_neg h, ← hv]
    exact concatenate_pair_apply_right (t := ⟨2, ![2048, 2]⟩) (s₁ := ⟨2, ![2048, 1]⟩) (s₂ := ⟨2, ![2048, 1]⟩) (1 : Fin 2) _ _ hc
      (ix2 p q) rfl rfl (ix2 p 0) (fun b hb' => match b, hb' with | ⟨0, _⟩, _ => rfl | ⟨1, _⟩, hb' => absurd rfl hb')
      (by show 0 + 1 = q.val; omega)

/-- Column `r` of the tile, cut out as a one-lane block, holds sample `p`'s activity `r`. -/
theorem column_apply (r : ℕ) (hr : r < 10) (x : (⟨2, ![2048, 10]⟩ : Shape).Idx → EReal)
    (h : (⟨2, ![2048, 10]⟩ : Shape).Slices ![0, r] (⟨2, ![2048, 1]⟩ : Shape)) (p : Fin 2048) :
    extractStridedSlice (⟨2, ![2048, 1]⟩ : Shape) ![0, r] x h (ix2 p 0) = x (ix2 p ⟨r, hr⟩) :=
  extractStridedSlice_apply ![0, r] x h (ix2 p 0) (ix2 p ⟨r, hr⟩) (fun a => match a with
    | ⟨0, _⟩ => by show p.val = 0 + p.val; omega
    | ⟨1, _⟩ => by show r = r + 0; omega)

/-- The choice-0 factor of component `r` as the kernel forms it: the word of `1.0` less column `r`. -/
theorem one_sub_column (r : ℕ) (hr : r < 10) (x : (⟨2, ![2048, 10]⟩ : Shape).Idx → EReal)
    (h : (⟨2, ![2048, 10]⟩ : Shape).Slices ![0, r] (⟨2, ![2048, 1]⟩ : Shape)) (p : Fin 2048) :
    (Scalar.ofBits .f32 0x3F800000#32 : Ideal .f32) - extractStridedSlice (⟨2, ![2048, 1]⟩ : Shape) ![0, r] x h (ix2 p 0)
      = fac0 x p r := by
  rw [column_apply r hr, fac0_of_lt _ _ _ hr]; rfl

/-- The choice-1 factor of component `r`: column `r` itself. -/
theorem column_eq_fac1 (r : ℕ) (hr : r < 10) (x : (⟨2, ![2048, 10]⟩ : Shape).Idx → EReal)
    (h : (⟨2, ![2048, 10]⟩ : Shape).Slices ![0, r] (⟨2, ![2048, 1]⟩ : Shape)) (p : Fin 2048) :
    extractStridedSlice (⟨2, ![2048, 1]⟩ : Shape) ![0, r] x h (ix2 p 0) = fac1 x p r := by
  rw [column_apply r hr, fac1_of_lt _ _ _ hr]

/-- The 32-lane table after the first five components (the value the body's first part hands on): lane `q` of sample
    `p` is the product of the sample's first five factors chosen by `q`'s binary digits, component `r` by digit `r`. -/
theorem five_components_apply (x : Vec Ideal S2048x10 .f32) (p : Fin 2048) (q : Fin 32) :
    k0_pay3 (F := Ideal) x (ix2 p q) = hiProd (fac0 x p) (fac1 x p) 4 q.val := by
  unfold k0_pay3
  refine doubling_hiProd (n := 16) (m := 32) 3 rfl rfl _ _ _ _ _ _ _ p (fun q => ?_)
    (one_sub_column 4 (by decide) x _ p) (column_eq_fac1 4 (by decide) x _ p) q
  refine doubling_hiProd (n := 8) (m := 16) 2 rfl rfl _ _ _ _ _ _ _ p (fun q => ?_)
    (one_sub_column 3 (by decide) x _ p) (column_eq_fac1 3 (by decide) x _ p) q
  refine doubling_hiProd (n := 4) (m := 8) 1 rfl rfl _ _ _ _ _ _ _ p (fun q => ?_)
    (one_sub_column 2 (by decide) x _ p) (column_eq_fac1 2 (by decide) x _ p) q
  refine doubling_hiProd (n := 2) (m := 4) 0 rfl rfl _ _ _ _ _ _ _ p (fun q => ?_)
    (one_sub_column 1 (by decide) x _ p) (column_eq_fac1 1 (by decide) x _ p) q
  exact base_hiProd _ _ _ _ _ p (one_sub_column 0 (by decide) x _ p) (column_eq_fac1 0 (by decide) x _ p) q

/-- WHAT ONE GRID POINT ADDS. The value the body stores into the accumulator, at state `q`: what the accumulator held
    there plus, summed over the tile's 2048 samples, the product of the sample's ten factors chosen by `q`'s binary
    digits (component `r` by digit `r`). -/
theorem accumulate_apply (x : Vec Ideal S2048x10 .f32) (prev : Vec Ideal S1x1024 .f32) (q : Fin 1024) :
    k0_pay1 (F := Ideal) x (k0_pay5 x) (k0_pay6 x) prev (ix2 0 q)
      = prev (ix2 0 q) + ∑ p : Fin 2048, hiProd (fac0 x p) (fac1 x p) 9 q.val := by
  unfold k0_pay1 k0_pay5 k0_pay6 k0_pay4
  rw [shapeCast_self]
  show prev (ix2 0 q) + _ = _
  congr 1
  refine (shapeCast_apply _ shapeCasts_S1024_S1x1024 (ix2 0 q) (ix1 q)
    (by rw [Shape.rowMajor_val_one, Shape.rowMajor_val_two]; show q.val = 0 * 1024 + q.val; omega)).trans ?_
  refine (Ideal.multiReduction_add_single _ _ reduces_S2048x1024_S1024 _ _ (ix1 q)).trans ?_
  refine Finset.sum_congr rfl fun p _ => ?_
  have e : reduces_S2048x1024_S1024.lift (ix1 q) p = ix2 p q :=
    funext fun a => match a with | ⟨0, _⟩ => Fin.ext rfl | ⟨1, _⟩ => Fin.ext rfl
  rw [e]
  refine doubling_hiProd (n := 512) (m := 1024) 8 rfl rfl _ _ _ _ _ _ _ p (fun q => ?_)
    (one_sub_column 9 (by decide) x _ p) (column_eq_fac1 9 (by decide) x _ p) q
  refine doubling_hiProd (n := 256) (m := 512) 7 rfl rfl _ _ _ _ _ _ _ p (fun q => ?_)
    (one_sub_column 8 (by decide) x _ p) (column_eq_fac1 8 (by decide) x _ p) q
  refine doubling_hiProd (n := 128) (m := 256) 6 rfl rfl _ _ _ _ _ _ _ p (fun q => ?_)
    (one_sub_column 7 (by decide) x _ p) (column_eq_fac1 7 (by decide) x _ p) q
  refine doubling_hiProd (n := 64) (m := 128) 5 rfl rfl _ _ _ _ _ _ _ p (fun q => ?_)
    (one_sub_column 6 (by decide) x _ p) (column_eq_fac1 6 (by decide) x _ p) q
  refine doubling_hiProd (n := 32) (m := 64) 4 rfl rfl _ _ _ _ _ _ _ p (fun q => ?_)
    (one_sub_column 5 (by decide) x _ p) (column_eq_fac1 5 (by decide) x _ p) q
  exact five_components_apply x p q

end Cert.KernelIdeal.Lanes

end
-- ==== Proof.ScratchFold.lean ====
/-
  What the kernel's accumulator holds point by point, and what the output array holds after the run.

  Grid point `t` reads tile `t` of the activity array — samples `2048·t … 2048·t + 2047` (`tile_apply`) — and adds, for
  every state `q`, the tile's sum of the samples' products (`Lanes.accumulate_apply`) to the accumulator, which the first
  point resets beforehand (`scratch_first`, `scratch_middle`, `scratch_last`). So after point `n` the accumulator holds,
  at state `q`, the sum over the first `2048·(n + 1)` samples (`scratch_apply`, by induction on the point). Only the last
  point stores the accumulator into the output block (`output_last`) and only that point is written back, through a block
  that is the whole output array (`mem_out_blk`), so the array ends holding the sum over all 131072 samples (`final`).
-/
import proofs.«139507_j57071525430111_1_alg».proof.Proof.Gen.KernelIdeal.Frame
import proofs.«139507_j57071525430111_1_alg».proof.Proof.LaneDoubling
import Idealize.ShloMosaic.Lib.Pipeline.Value

set_option maxRecDepth 16384

noncomputable section

namespace Cert.KernelIdeal.Fold

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Lanes Cert.StateOrder
open scoped BigOperators

variable {F : FTy → Type} [FloatOps F]

theorem hz : (![0, 0] : Fin 2 → Nat) = fun _ => 0 := funext fun a => by fin_cases a <;> rfl

/-- At the grid's first point the accumulator is reset and then takes the first tile's sums. -/
theorem scratch_first (c : Dev nD) (i : grid0.Coords) (arg1 : Memref sig .tc .vmem S2048x10 .f32) (harg1 : arg1.IsWhole)
    (arg2 : Memref sig .tc .vmem S1x1024 .f32) (harg2 : arg2.IsWhole) (arg3 : Memref sig .tc .vmem S1x1024 .f32) (harg3 : arg3.IsWhole)
    (hc0 : cond0_0 i) (hc1 : ¬cond0_1 i) (x0 : Vec F S2048x10 .f32) :
    sout0_A_0 c i arg1 harg1 arg2 harg2 arg3 harg3 hc0 hc1 x0
      = k0_pay1 x0 (k0_pay5 x0) (k0_pay6 x0) (k0_pay2 (F := F)) := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero (S := S1x1024) hz, View.readCov_unit_zero (S := S1x1024) _ hz]
  simp only [View.readAt_eq_ld, harg1.read_unread, View.ld_unit_zero (S := S2048x10) hz]

/-- At a middle point the accumulator takes the tile's sums on top of what the point before left. -/
theorem scratch_middle (c : Dev nD) (i : grid0.Coords) (arg1 : Memref sig .tc .vmem S2048x10 .f32) (harg1 : arg1.IsWhole)
    (arg2 : Memref sig .tc .vmem S1x1024 .f32) (harg2 : arg2.IsWhole) (arg3 : Memref sig .tc .vmem S1x1024 .f32) (harg3 : arg3.IsWhole)
    (hc0 : ¬cond0_0 i) (hc1 : ¬cond0_1 i) (x0 : Vec F S2048x10 .f32) (xs0 : Vec F S1x1024 .f32) :
    sout0_B_0 c i arg1 harg1 arg2 harg2 arg3 harg3 hc0 hc1 x0 xs0
      = k0_pay1 x0 (k0_pay5 x0) (k0_pay6 x0) xs0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero hz]
  simp only [View.readAt_eq_ld, harg1.read_unread, harg3.read_unread, View.ld_unit_zero (S := S2048x10) hz,
    View.ld_unit_zero (S := S1x1024) hz]

/-- At the last point the output block takes the accumulator as just updated. -/
theorem output_last (c : Dev nD) (i : grid0.Coords) (arg1 : Memref sig .tc .vmem S2048x10 .f32) (harg1 : arg1.IsWhole)
    (arg2 : Memref sig .tc .vmem S1x1024 .f32) (harg2 : arg2.IsWhole) (arg3 : Memref sig .tc .vmem S1x1024 .f32) (harg3 : arg3.IsWhole)
    (hc0 : ¬cond0_0 i) (hc1 : cond0_1 i) (x0 : Vec F S2048x10 .f32) (xs0 : Vec F S1x1024 .f32) :
    out0_C_1 c i arg1 harg1 arg2 harg2 arg3 harg3 hc0 hc1 x0 xs0
      = k0_pay1 x0 (k0_pay5 x0) (k0_pay6 x0) xs0 := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero hz, View.readCov_unit_zero (S := S1x1024) _ hz]
  simp only [View.readAt_eq_ld, harg1.read_unread, harg3.read_unread, View.ld_unit_zero (S := S2048x10) hz,
    View.ld_unit_zero (S := S1x1024) hz]

/-- At the last point the accumulator is updated like at a middle point. -/
theorem scratch_last (c : Dev nD) (i : grid0.Coords) (arg1 : Memref sig .tc .vmem S2048x10 .f32) (harg1 : arg1.IsWhole)
    (arg2 : Memref sig .tc .vmem S1x1024 .f32) (harg2 : arg2.IsWhole) (arg3 : Memref sig .tc .vmem S1x1024 .f32) (harg3 : arg3.IsWhole)
    (hc0 : ¬cond0_0 i) (hc1 : cond0_1 i) (x0 : Vec F S2048x10 .f32) (xs0 : Vec F S1x1024 .f32) :
    sout0_C_0 c i arg1 harg1 arg2 harg2 arg3 harg3 hc0 hc1 x0 xs0
      = k0_pay1 x0 (k0_pay5 x0) (k0_pay6 x0) xs0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero hz]
  simp only [View.readAt_eq_ld, harg1.read_unread, harg3.read_unread, View.ld_unit_zero (S := S2048x10) hz,
    View.ld_unit_zero (S := S1x1024) hz]

/-! ## At the extended reals -/

/-- The reset value is zero everywhere. -/
theorem reset_apply (i : S1x1024.Idx) : k0_pay2 (F := Ideal) i = 0 := by
  unfold k0_pay2
  rw [shapeCast_self]
  exact Ideal.ofBits_zero_f32

/-- Sample `b`'s product of factors at state `q`, the kernel's way of numbering the states (component `r` in binary
    digit `r`); zero past the array's last sample, so that sums over ranges of sample numbers can be split freely. -/
def rowTerm (A : S131072x10.Idx → EReal) (q : ℕ) (b : ℕ) : EReal :=
  if h : b < 131072 then hiProd (fac0 A ⟨b, h⟩) (fac1 A ⟨b, h⟩) 9 q else 0

/-- The sum over the first `k` tiles, and the next tile, make the sum over the first `k + 1` tiles. -/
theorem tiles_succ (A : S131072x10.Idx → EReal) (q k : ℕ) :
    ∑ b ∈ Finset.range (k * 2048), rowTerm A q b + ∑ p ∈ Finset.range 2048, rowTerm A q (k * 2048 + p)
      = ∑ b ∈ Finset.range ((k + 1) * 2048), rowTerm A q b := by
  rw [show (k + 1) * 2048 = k * 2048 + 2048 by ring, Finset.sum_range_add]

variable (m : (ℓ : Loc nD τ sig) → Buf (Elt Ideal) ℓ)

/-- Tile `t` of the activity array as the region finds it, at its literal shape. -/
abbrev tile (c : Dev nD) (t : Fin cfg0.N) : Vec Ideal S2048x10 .f32 := iblk m c 0 t

/-- The printed index maps, decided over the grid: the input's block row is the point's number, its block column zero;
    the output's block is always the first. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row `p` of tile `t` is sample `2048·t + p`. -/
theorem tile_apply (c : Dev nD) (t : Fin cfg0.N) (p : Fin 2048) (r : Fin 10) (hb : t.val * 2048 + p.val < 131072) :
    tile m c t (ix2 p r) = V m c main_arg0 (ix2 ⟨t.val * 2048 + p.val, hb⟩ r) := by
  show V m c main_arg0 (((cfg0.win 0).blk t).view.emb (ix2 p r)) = V m c main_arg0 _
  refine congrArg _ (funext fun a => Fin.ext ?_)
  match a with
  | ⟨0, _⟩ => show win0_0.index t (0 : Fin 2) * 2048 + 1 * p.val = t.val * 2048 + p.val; rw [(idx_facts t).1]; omega
  | ⟨1, _⟩ => show win0_0.index t (1 : Fin 2) * 10 + 1 * r.val = r.val; rw [(idx_facts t).2.1]; omega

/-- So the tile's row has the sample's factors. -/
theorem tile_fac0 (c : Dev nD) (t : Fin cfg0.N) (p : Fin 2048) (hb : t.val * 2048 + p.val < 131072) :
    fac0 (tile m c t) p = fac0 (V m c main_arg0) ⟨t.val * 2048 + p.val, hb⟩ := by
  funext r
  by_cases h : r < 10
  · rw [fac0_of_lt _ _ _ h, fac0_of_lt _ _ _ h, tile_apply m c t p ⟨r, h⟩ hb]
  · unfold fac0; rw [dif_neg h, dif_neg h]

theorem tile_fac1 (c : Dev nD) (t : Fin cfg0.N) (p : Fin 2048) (hb : t.val * 2048 + p.val < 131072) :
    fac1 (tile m c t) p = fac1 (V m c main_arg0) ⟨t.val * 2048 + p.val, hb⟩ := by
  funext r
  by_cases h : r < 10
  · rw [fac1_of_lt _ _ _ h, fac1_of_lt _ _ _ h, tile_apply m c t p ⟨r, h⟩ hb]
  · unfold fac1; rw [dif_neg h, dif_neg h]

/-- The tile's sum of products, as a sum over its sample numbers. -/
theorem tile_sum (c : Dev nD) (t : Fin cfg0.N) (q : ℕ) :
    ∑ p : Fin 2048, hiProd (fac0 (tile m c t) p) (fac1 (tile m c t) p) 9 q
      = ∑ p ∈ Finset.range 2048, rowTerm (V m c main_arg0) q (t.val * 2048 + p) := by
  have hN : t.val < 64 := lt_of_lt_of_eq t.isLt N_0
  rw [Finset.sum_range]
  refine Finset.sum_congr rfl fun p _ => ?_
  have hb : t.val * 2048 + p.val < 131072 := by have := p.isLt; omega
  unfold rowTerm
  rw [dif_pos hb, tile_fac0 m c t p hb, tile_fac1 m c t p hb]

/-- THE ACCUMULATOR AFTER POINT `n`: at state `q`, the sum over the first `n + 1` tiles' samples. -/
theorem scratch_apply (c : Dev nD) : ∀ (n : ℕ) (hn : n < cfg0.N) (q : Fin 1024),
    (outsAt0 m c n hn).2 (ix2 0 q) = ∑ b ∈ Finset.range ((n + 1) * 2048), rowTerm (V m c main_arg0) q.val b
  | 0, hn, q => by
    rw [outsAt0_A m c ⟨0, hn⟩ (Nat.zero_mod _) (by show ¬(0 : ℕ) % 64 = 63; omega)]
    dsimp only
    rw [scratch_first (F := Ideal), accumulate_apply, reset_apply, zero_add, tile_sum m c ⟨0, hn⟩ q.val]
    have h := tiles_succ (V m c main_arg0) q.val 0
    rw [Nat.zero_mul, Finset.range_zero, Finset.sum_empty, zero_add] at h
    exact h
  | n + 1, hn, q => by
    have hN : n + 1 < 64 := lt_of_lt_of_eq hn N_0
    have ih := scratch_apply c n (Nat.lt_of_succ_lt hn) q
    by_cases h1 : (n + 1) % 64 = 63
    · rw [outsAt0_C m c ⟨n + 1, hn⟩ (by show ¬(n + 1) % 64 = 0; omega) h1]
      dsimp only
      rw [scratch_last (F := Ideal), accumulate_apply]
      exact (congrArg₂ (· + ·) ih (tile_sum m c ⟨n + 1, hn⟩ q.val)).trans (tiles_succ _ _ (n + 1))
    · rw [outsAt0_B m c ⟨n + 1, hn⟩ (by show ¬(n + 1) % 64 = 0; omega) h1]
      dsimp only
      rw [scratch_middle (F := Ideal), accumulate_apply]
      exact (congrArg₂ (· + ·) ih (tile_sum m c ⟨n + 1, hn⟩ q.val)).trans (tiles_succ _ _ (n + 1))

/-- THE OUTPUT BLOCK AT THE LAST POINT: the accumulator as that point leaves it, the sum over all the tiles so far. -/
theorem output_apply (c : Dev nD) (t : Fin cfg0.N) (h63 : t.val % 64 = 63) (q : Fin 1024) :
    (outsAt0 m c t.val t.isLt).1 (ix2 0 q)
      = ∑ b ∈ Finset.range ((t.val + 1) * 2048), rowTerm (V m c main_arg0) q.val b := by
  have hN : t.val < 64 := lt_of_lt_of_eq t.isLt N_0
  have e : t.val - 1 + 1 = t.val := by omega
  have ih := scratch_apply m c (t.val - 1) (Nat.lt_of_le_of_lt (Nat.sub_le _ _) t.isLt) q
  rw [e] at ih
  rw [outsAt0_C m c t (by omega) h63]
  dsimp only
  rw [output_last (F := Ideal), accumulate_apply]
  exact (congrArg₂ (· + ·) ih (tile_sum m c t q.val)).trans (tiles_succ _ _ t.val)

/-- What the output array holds after the run: at state `q`, the sum over all 131072 samples of the sample's product
    of factors at `q`. -/
def sums (A : S131072x10.Idx → EReal) : S1x1024.Idx → EReal :=
  fun i => ∑ b ∈ Finset.range 131072, rowTerm A (i 1).val b

/-- The same as a sum over the samples. -/
theorem sums_apply (A : S131072x10.Idx → EReal) (q : Fin 1024) :
    sums A (ix2 0 q) = ∑ b : Fin 131072, hiProd (fac0 A b) (fac1 A b) 9 q.val := by
  unfold sums
  rw [Finset.sum_range]
  refine Finset.sum_congr rfl fun b _ => ?_
  unfold rowTerm
  rw [dif_pos b.isLt]

/-- What a point writes back, read through the output's block: the output buffer's contents state by state (the block
    is the whole one-row array, so block coordinates are array coordinates). -/
theorem flushed_eq_of (c : Dev nD) (t : Fin cfg0.N) (G : S1x1024.Idx → EReal)
    (hG : ∀ q : Fin 1024, (outsAt0 m c t.val t.isLt).1 (ix2 0 q) = G (ix2 0 q)) :
    (dats m 0 c).flushed 1 t = ((cfg0.win 1).blk t).view.read (Elt Ideal) G := by
  show (cfg0.win 1).cut (grid0.coords t) ((dats m 0 c).after 1 t) = _
  rw [after0_1]
  refine funext fun (y : S1x1024.Idx) => ?_
  obtain ⟨y0, q, rfl⟩ : ∃ (y0 : Fin 1) (q : Fin 1024), y = ix2 y0 q := ⟨y 0, y 1, eq_ix2 y⟩
  obtain rfl : y0 = 0 := Subsingleton.elim _ _
  have he : ((cfg0.win 1).blk t).view.emb (ix2 0 q) = (ix2 0 q : S1x1024.Idx) := funext fun a => Fin.ext (by
    match a with
    | ⟨0, _⟩ => show win0_1.index t (0 : Fin 2) * 1 + 1 * 0 = 0; rw [(idx_facts t).2.2.1]
    | ⟨1, _⟩ => show win0_1.index t (1 : Fin 2) * 1024 + 1 * q.val = q.val; rw [(idx_facts t).2.2.2]; omega)
  show (outsAt0 m c t.val t.isLt).1 (ix2 0 q) = G (((cfg0.win 1).blk t).view.emb (ix2 0 q))
  rw [he]
  exact hG q

/-- WHAT THE LAST POINT WRITES BACK is the one block of `sums` of the activity array. -/
theorem flushed_eq (c : Dev nD) (t : Fin cfg0.N) (hf : (cfg0.win 1).flush t = true) :
    (dats m 0 c).flushed 1 t = ((cfg0.win 1).blk t).view.read (Elt Ideal) (sums (V m c main_arg0)) := by
  have h63 : t.val % 64 = 63 := (flush0_1 t).mp hf
  have hN : t.val < 64 := lt_of_lt_of_eq t.isLt N_0
  refine flushed_eq_of m c t _ fun q => ?_
  rw [output_apply m c t h63 q, show (t.val + 1) * 2048 = 131072 by omega]
  unfold sums
  rfl

/-- An index of the output array is in point `t`'s block iff each coordinate is in the block's range on its axis. -/
theorem mem_out_blk (t : Fin cfg0.N) (i : S1x1024.Idx) :
    i ∈ ((cfg0.win 1).blk t).view.set ↔ ∀ a : Fin 2, win0_1.index t a * S1x1024.size a ≤ (i a).val
      ∧ (i a).val < win0_1.index t a * S1x1024.size a + S1x1024.size a := by
  show i ∈ ((View.whole main_v0).slice (win0_1.rect t)).set ↔ _
  rw [View.set_slice_whole, Rect.mem_set_unit]
  exact Iff.rfl

/-- The last point's block is the whole output array. -/
theorem covered (i : S1x1024.Idx) :
    ∃ t : Fin cfg0.N, (cfg0.win 1).flush t = true ∧ i ∈ ((cfg0.win 1).blk t).view.set := by
  have h : 63 < cfg0.N := lt_of_lt_of_eq (by decide : 63 < 64) N_0.symm
  refine ⟨⟨63, h⟩, (flush0_1 _).mpr (by show 63 % 64 = 63; decide), ?_⟩
  rw [mem_out_blk]
  have h0 : (i 0).val < 1 := (i 0).isLt
  have h1 : (i 1).val < 1024 := (i 1).isLt
  intro a
  match a with
  | ⟨0, _⟩ =>
    show win0_1.index ⟨63, h⟩ (0 : Fin 2) * 1 ≤ (i 0).val ∧ (i 0).val < win0_1.index ⟨63, h⟩ (0 : Fin 2) * 1 + 1
    rw [(idx_facts ⟨63, h⟩).2.2.1]; omega
  | ⟨1, _⟩ =>
    show win0_1.index ⟨63, h⟩ (1 : Fin 2) * 1024 ≤ (i 1).val ∧ (i 1).val < win0_1.index ⟨63, h⟩ (1 : Fin 2) * 1024 + 1024
    rw [(idx_facts ⟨63, h⟩).2.2.2]; omega

/-- THE OUTPUT ARRAY AFTER THE RUN. -/
theorem final (c : Dev nD) : (dats m 0 c).arrAt 1 cfg0.N = sums (V m c main_arg0) :=
  (dats m 0 c).arrAt_eq_of_cover 1 (sums (V m c main_arg0)) (fun t hf => flushed_eq m c t hf) covered

end Cert.KernelIdeal.Fold

end
-- ==== Proof.EntropyTail.lean ====
/-
  The host lines both programs end with, and why they cannot see the order of the states.

  From the vector `s` of the 1024 states' summed probabilities both programs compute, in the same operations and with
  the same float words, `- - (0 + ∑ over states of t(s_j))` where `t(x) = (x / B) · (log (max ε (x / B)) / ln2)`
  (`tail`, `tail_apply`). The state enters only through the sum, so if one program's vector is the other's with the
  states renamed by the digit reversal of Proof/LibStateOrder.lean, the two results are equal (`tail_eq_of_rev`): addition of
  extended reals is commutative and associative, and nothing else is used.
-/
import proofs.«139507_j57071525430111_1_alg».proof.Proof.LibStateOrder
import Idealize.ShloMosaic.Lib.Pipeline.Value
import Idealize.ShloMosaic.Lib.ValueIdx
import Idealize.ShloMosaic.PureOps.Ideal.Laws

noncomputable section

open Idealize.ShloMosaic Idealize.ShloMosaic.ValueIdx Cert.StateOrder
open scoped BigOperators

namespace Cert.EntropyTail

/-- The scalar shape and the shape of the state vector, as both programs spell them. -/
abbrev S0 : Shape := ⟨0, ![]⟩
abbrev S1024 : Shape := ⟨1, ![1024]⟩

section AnyInstance
variable {F : FTy → Type} [FloatOps F]

/-- The lines after the sum over samples, as one function of the state vector: divide by the number of samples, clip
    from below, take the logarithm, divide by the word of `log 2`, multiply by the mean, sum over the states, negate
    twice. The three shape facts are the ones each program states for itself. -/
def tail (hb : S0.BroadcastsInDim S1024 (![] : Fin 0 → Fin S1024.rank)) (hr : S1024.ReducesTo [0] S0) (h0 : 0 < S0.numel)
    (s : FVec F S1024 .f32) : FVec F S0 .f32 :=
  Host.negf (Host.negf (Host.reduceAdd
    (mulf (Host.divf s (broadcastInDim S1024 ![] hb (constant S0 .f32 0x48000000#32)))
      (Host.divf (Host.log (maximumf (broadcastInDim S1024 ![] hb (id (constant S0 .f32 0x2B8CBCCC#32)))
          (Host.divf s (broadcastInDim S1024 ![] hb (constant S0 .f32 0x48000000#32)))))
        (broadcastInDim S1024 ![] hb (constant S0 .f32 0x3F317218#32))))
    (constant S0 .f32 0x00000000#32) hr h0))

end AnyInstance

/-- One state's term of the sum, at the extended reals. The three float words are never evaluated. -/
def term (x : EReal) : EReal :=
  FloatOps.mulf (F := Ideal) (φ := .f32) (FloatOps.hostDivf x (FloatOps.ofBits .f32 0x48000000#32))
    (FloatOps.hostDivf
      (FloatOps.hostUnary .log (FloatOps.maximumf (FloatOps.ofBits .f32 0x2B8CBCCC#32) (FloatOps.hostDivf x (FloatOps.ofBits .f32 0x48000000#32))))
      (FloatOps.ofBits .f32 0x3F317218#32))

/-- The tail at the extended reals: the doubly negated sum of the states' terms from the zero word. -/
theorem tail_apply (hb : S0.BroadcastsInDim S1024 (![] : Fin 0 → Fin S1024.rank)) (hr : S1024.ReducesTo [0] S0) (h0 : 0 < S0.numel)
    (s : FVec Ideal S1024 .f32) (i : S0.Idx) :
    tail (F := Ideal) hb hr h0 s i
      = FloatOps.hostNegf (F := Ideal) (φ := .f32) (FloatOps.hostNegf (F := Ideal) (φ := .f32)
          (FloatOps.ofBits (F := Ideal) .f32 0x00000000#32 + ∑ j : S1024.Idx, term (s j))) := by
  unfold tail
  show FloatOps.hostNegf (FloatOps.hostNegf (Host.reduceAdd _ _ hr h0 i)) = _
  refine congrArg _ (congrArg _ ?_)
  simp only [Host.reduceAdd, Ideal.hostReduceAdd_def]
  rw [Ideal.hostReduceAdd_total hr (fun b => b.elim0)]
  refine congrArg₂ (· + ·) rfl (Finset.sum_congr rfl fun j _ => ?_)
  have hbc : ∀ (y : S0.Idx → EReal), broadcastInDim S1024 ![] hb y j = y ix0 := fun y =>
    broadcastInDim_apply _ hb y j ix0 (fun a => a.elim0)
  simp only [mulf, Host.divf, Host.log, maximumf, hbc]
  rfl

/-- A rank-1 index set is its coordinate's range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- RENAMING THE STATES DOES NOT CHANGE THE RESULT. If state `j` of `a` is `K j`, state `j` of `b` is `R j`, and
    `K j = R (rev 10 j)` — `a` is `b` with every state's ten binary digits reversed — the two tails agree. -/
theorem tail_eq_of_rev (hb hb' : S0.BroadcastsInDim S1024 (![] : Fin 0 → Fin S1024.rank)) (hr hr' : S1024.ReducesTo [0] S0)
    (h0 h0' : 0 < S0.numel) (a b : FVec Ideal S1024 .f32) (K R : ℕ → EReal)
    (ha : ∀ k : Fin 1024, a (ix1 k) = K k.val) (hb2 : ∀ k : Fin 1024, b (ix1 k) = R k.val)
    (hKR : ∀ j, j < 1024 → K j = R (rev 10 j)) :
    tail (F := Ideal) hb hr h0 a = tail (F := Ideal) hb' hr' h0' b := by
  funext i
  rw [tail_apply, tail_apply]
  congr 3
  rw [sum_idx1, sum_idx1]
  simp only [ha, hb2]
  rw [Fin.sum_univ_eq_sum_range (fun j => term (K j)) 1024, Fin.sum_univ_eq_sum_range (fun j => term (R j)) 1024]
  exact (Finset.sum_congr rfl fun j hj => by rw [hKR j (Finset.mem_range.1 hj)]).trans
    (sum_rev 10 fun s => term (R s))

end Cert.EntropyTail

end
-- ==== Proof.KernelResult.lean ====
/-
  The kernel program's result: the shared host tail applied to the output array the region leaves.

  After the region the program reshapes the one-row output array to the state vector and runs the host lines of
  Proof/EntropyTail.lean on it, word for word (`result_eq`: the lines' composed term, with the output array at what
  Proof/ScratchFold.lean found it to hold). `run` restates the generated frame run with that result named.
-/
import proofs.«139507_j57071525430111_1_alg».proof.Proof.ScratchFold
import proofs.«139507_j57071525430111_1_alg».proof.Proof.EntropyTail
import Idealize.ShloMosaic.Lib.StableHlo.Run

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fold Cert.StateOrder

variable (m : (ℓ : Loc nD τ sig) → Buf (Elt Ideal) ℓ) (ρ : Dev nD → PrngReg)

/-- The state vector the tail starts from: the output array with its unit axis dropped. -/
abbrev states (c : Dev nD) : FVec Ideal S1024 .f32 :=
  shapeCast S1024 (sums (V m c main_arg0)) shapeCasts_S1x1024_S1024

/-- THE RESULT after the lines that follow the region: the tail of the state vector. -/
theorem result_eq (c : Dev nD) :
    Pipeline.afterTail₀ cfgs (dats m) 0 (V0 m) [hostOps1, hostOps1_1, hostOps1_2] c main_v11
      = Cert.EntropyTail.tail (F := Ideal) bcast_S_S1024 reducesTo_S1024_S_d0 h_S_ (states m c) := by
  unfold Pipeline.afterTail₀
  simp only [hostOps1, hostOps1_1, hostOps1_2, List.flatten_cons, List.flatten_nil, List.append_nil, List.cons_append,
    List.nil_append]
  after_results
  have hw : Pipeline.withArrays (cfgs 0).spec c (V0 m c) (fun w => (dats m 0 c).arrAt w (cfgs 0).N) (Proc.devRef .tc main_v0)
      = sums (V m c main_arg0) := (Pipeline.withArrays_arr spec0 launch0.win.arr_inj c _ _ 1).trans (final m c)
  rw [hw]
  rfl

/-- THE KERNEL PROGRAM'S RUN, its result named: every weakly fair execution ends with the result buffer at the tail of
    the state vector and the activity array unchanged. The result buffer is none of the region's arrays, so it holds
    what the lines after the region leave; the activity array is the region's input. -/
theorem run : θ_run defs (onTc (τ := τ) (main (F := Ideal))) ⟨m, fun _ => 0, ρ⟩ (fun r => ∀ c : Dev nD,
      r.2.mem ((c.tc : Thread nD τ).loc main_v11)
        = Cert.EntropyTail.tail (F := Ideal) bcast_S_S1024 reducesTo_S1024_S_d0 h_S_ (states m c)
      ∧ r.2.mem ((c.tc : Thread nD τ).loc main_arg0) = m ((c.tc : Thread nD τ).loc main_arg0)) :=
  (θ_run defs _ _).mono (fun r h c =>
      ⟨((h c).2 main_v11 (Pipeline.mem_restRefs_of main_v11 rfl (fun w => by fin_cases w <;> decide))).trans (result_eq m c),
        ((h c).1 0).trans (((dats m 0 c).arrAt_in 0 rfl _).trans ((A_eq m c 0).trans (V_main_arg0 m c)))⟩)
    (run_main m ρ)

end Cert.KernelIdeal.Result

end
-- ==== Proof.RefRead.lean ====
/-
  The reference program read one operation at a time.

  The reference stacks, for every sample `b` and component `r`, the pair `(unit - a, a)` of its two factors
  (`stacked_apply`), starts the sample's table from component 0's pair (`first_loProd`) and, for each further
  component, multiplies every entry of the table by both factors of the component and flattens the result row-major
  (`outer_loProd`: one such step at any width). Flattening `[.., n, 2]` to `[.., 2n]` puts the new component's choice
  in the LOW binary digit of the state number: entry `s` is the old entry `s / 2` times the factor chosen by `s % 2`.
  So state `s` of sample `b` holds `loProd` of the sample's factors at `s` (`table0` … `table9`), and the sum over
  the samples is what the reference's first reduction leaves (`state_sum`).
-/
import proofs.«139507_j57071525430111_1_alg».proof.Proof.Gen.ReferenceIdeal.Read
import proofs.«139507_j57071525430111_1_alg».proof.Proof.LibStateOrder
import Idealize.ShloMosaic.Lib.Pipeline.Value
import Idealize.ShloMosaic.Lib.ValueIdx
import Idealize.ShloMosaic.PureOps.Ideal.Laws

noncomputable section

open Idealize.ShloMosaic Idealize.ShloMosaic.ValueIdx Cert.StateOrder
open scoped BigOperators

namespace Cert.ReferenceIdeal.Joint

open Cert.ReferenceIdeal Cert.ReferenceIdeal.Gen Cert.ReferenceIdeal.Read

/-- The stacked factors: entry `(b, r, k)` is component `r`'s factor for choice `k` in sample `b`. -/
theorem stacked_apply (x0 : S131072x10.Idx → EReal) (b : Fin 131072) (r : ℕ) (hr : r < 10) (k : Fin 2) :
    val_main_v4 (F := Ideal) x0 (ix3 b ⟨r, hr⟩ k) = if k.val = 0 then fac0 x0 b r else fac1 x0 b r := by
  have hk := k.isLt
  unfold val_main_v4
  by_cases h : k.val = 0
  · rw [if_pos h, fac0_of_lt _ _ _ hr]
    refine (concatenate_pair_apply_left (t := S131072x10x2) (s₁ := S131072x10x1) (s₂ := S131072x10x1) (2 : Fin 3) _ _
      concatenates_S131072x10x1_S131072x10x1_S131072x10x2_d2 (ix3 b ⟨r, hr⟩ k) rfl (ix3 b ⟨r, hr⟩ 0)
      (fun a => match a with | ⟨0, _⟩ => rfl | ⟨1, _⟩ => rfl | ⟨2, _⟩ => by show (0 : ℕ) = k.val; omega)).trans ?_
    rw [val_main_v2_apply, val_main_v1_apply, val_main_v0_apply, val_main_cst_apply]
    show unit - x0 _ = unit - x0 _
    exact congrArg (fun i => unit - x0 i) (funext fun a => match a with | ⟨0, _⟩ => rfl | ⟨1, _⟩ => rfl)
  · rw [if_neg h, fac1_of_lt _ _ _ hr]
    refine (concatenate_pair_apply_right (t := S131072x10x2) (s₁ := S131072x10x1) (s₂ := S131072x10x1) (2 : Fin 3) _ _
      concatenates_S131072x10x1_S131072x10x1_S131072x10x2_d2 (ix3 b ⟨r, hr⟩ k) rfl rfl (ix3 b ⟨r, hr⟩ 0)
      (fun a ha => match a, ha with | ⟨0, _⟩, _ => rfl | ⟨1, _⟩, _ => rfl | ⟨2, _⟩, ha => absurd rfl ha)
      (by show 0 + 1 = k.val; omega)).trans ?_
    rw [val_main_v3_apply]
    exact congrArg x0 (funext fun a => match a with | ⟨0, _⟩ => rfl | ⟨1, _⟩ => rfl)

/-- THE START: component 0's pair, cut out of the stack, is the two-state table. -/
theorem first_loProd (u v : ℕ → EReal) (C : (⟨3, ![131072, 10, 2]⟩ : Shape).Idx → EReal)
    (h5 : (⟨3, ![131072, 10, 2]⟩ : Shape).Slices ![0, 0, 0] (⟨3, ![131072, 1, 2]⟩ : Shape))
    (h6 : (⟨3, ![131072, 1, 2]⟩ : Shape).ShapeCasts (⟨2, ![131072, 2]⟩ : Shape))
    (b : Fin 131072) (hC : ∀ k : Fin 2, C (ix3 b 0 k) = if k.val = 0 then u 0 else v 0) (j : Fin 2) :
    shapeCast (⟨2, ![131072, 2]⟩ : Shape) (extractStridedSlice (⟨3, ![131072, 1, 2]⟩ : Shape) ![0, 0, 0] C h5) h6 (ix2 b j)
      = loProd u v 0 j.val := by
  rw [loProd_zero, ← hC j]
  refine (shapeCast_apply _ h6 (ix2 b j) (ix3 b 0 j)
    (by rw [Shape.rowMajor_val_three, Shape.rowMajor_val_two]; show (b.val * 1 + 0) * 2 + j.val = b.val * 2 + j.val; omega)).trans ?_
  exact extractStridedSlice_apply _ C h5 (ix3 b 0 j) (ix3 b 0 j) (fun a => match a with
    | ⟨0, _⟩ => by show b.val = 0 + b.val; omega
    | ⟨1, _⟩ => by show (0 : ℕ) = 0 + 0; omega
    | ⟨2, _⟩ => by show j.val = 0 + j.val; omega)

/-- ONE OUTER-PRODUCT STEP, at any width. If entry `j` of sample `b` of the old table `P` is `loProd u v r j`, and the
    stack `C` holds for sample `b` and component `r + 1` the pair `(u (r + 1), v (r + 1))`, then the table of all
    products `P[b, j] · C[b, r + 1, k]`, flattened row-major over `(j, k)`, is `loProd u v (r + 1)`: its entry `s` is
    the old entry `s / 2` times the factor for choice `s % 2`. -/
theorem outer_loProd {n m : ℕ} (r : ℕ) (hr : r + 1 < 10) (hn : n = 2 ^ (r + 1)) (hm : m = n + n) (u v : ℕ → EReal)
    (P : (⟨2, ![131072, n]⟩ : Shape).Idx → EReal) (C : (⟨3, ![131072, 10, 2]⟩ : Shape).Idx → EReal)
    (h7 : (⟨2, ![131072, n]⟩ : Shape).BroadcastsInDim (⟨3, ![131072, n, 1]⟩ : Shape) (![0, 1] : Fin 2 → Fin 3))
    (h8 : (⟨3, ![131072, 10, 2]⟩ : Shape).Slices ![0, r + 1, 0] (⟨3, ![131072, 1, 2]⟩ : Shape))
    (h9 : (⟨3, ![131072, 1, 2]⟩ : Shape).ShapeCasts (⟨2, ![131072, 2]⟩ : Shape))
    (h10 : (⟨2, ![131072, 2]⟩ : Shape).BroadcastsInDim (⟨3, ![131072, 1, 2]⟩ : Shape) (![0, 2] : Fin 2 → Fin 3))
    (h11 : (⟨3, ![131072, n, 1]⟩ : Shape).BroadcastsInDim (⟨3, ![131072, n, 2]⟩ : Shape) (![0, 1, 2] : Fin 3 → Fin 3))
    (h12 : (⟨3, ![131072, 1, 2]⟩ : Shape).BroadcastsInDim (⟨3, ![131072, n, 2]⟩ : Shape) (![0, 1, 2] : Fin 3 → Fin 3))
    (h14 : (⟨3, ![131072, n, 2]⟩ : Shape).ShapeCasts (⟨2, ![131072, m]⟩ : Shape))
    (b : Fin 131072)
    (hP : ∀ j : Fin n, P (ix2 b j) = loProd u v r j.val)
    (hC : ∀ k : Fin 2, C (ix3 b ⟨r + 1, hr⟩ k) = if k.val = 0 then u (r + 1) else v (r + 1))
    (s : Fin m) :
    shapeCast (⟨2, ![131072, m]⟩ : Shape)
      (mulf (F := Ideal) (φ := .f32)
        (broadcastInDim (⟨3, ![131072, n, 2]⟩ : Shape) (![0, 1, 2] : Fin 3 → Fin 3) h11
          (broadcastInDim (⟨3, ![131072, n, 1]⟩ : Shape) (![0, 1] : Fin 2 → Fin 3) h7 P))
        (broadcastInDim (⟨3, ![131072, n, 2]⟩ : Shape) (![0, 1, 2] : Fin 3 → Fin 3) h12
          (broadcastInDim (⟨3, ![131072, 1, 2]⟩ : Shape) (![0, 2] : Fin 2 → Fin 3) h10
            (shapeCast (⟨2, ![131072, 2]⟩ : Shape)
              (extractStridedSlice (⟨3, ![131072, 1, 2]⟩ : Shape) ![0, r + 1, 0] C h8) h9)))) h14 (ix2 b s)
      = loProd u v (r + 1) s.val := by
  subst hn
  subst hm
  have hs := s.isLt
  have hlt : s.val / 2 < 2 ^ (r + 1) := by omega
  have hmod : s.val % 2 < 2 := Nat.mod_lt _ (by decide)
  have h2 : 2 ^ (r + 1) ≠ 1 := by have := Nat.one_lt_two_pow (Nat.succ_ne_zero r); omega
  have hCk : C (ix3 b ⟨r + 1, hr⟩ ⟨s.val % 2, hmod⟩) = if s.val % 2 = 0 then u (r + 1) else v (r + 1) := hC ⟨s.val % 2, hmod⟩
  rw [loProd_succ, ← hP ⟨s.val / 2, hlt⟩, ← hCk]
  refine (shapeCast_apply _ h14 (ix2 b s) (ix3 b ⟨s.val / 2, hlt⟩ ⟨s.val % 2, hmod⟩) ?_).trans ?_
  · rw [Shape.rowMajor_val_three, Shape.rowMajor_val_two]
    show (b.val * 2 ^ (r + 1) + s.val / 2) * 2 + s.val % 2 = b.val * (2 ^ (r + 1) + 2 ^ (r + 1)) + s.val
    rw [Nat.mul_add]; omega
  show broadcastInDim _ _ h11 _ (ix3 b ⟨s.val / 2, hlt⟩ ⟨s.val % 2, hmod⟩)
      * broadcastInDim _ _ h12 _ (ix3 b ⟨s.val / 2, hlt⟩ ⟨s.val % 2, hmod⟩) = _
  congr 1
  · refine (broadcastInDim_apply _ h11 _ _ (ix3 b ⟨s.val / 2, hlt⟩ 0) (fun a => match a with
      | ⟨0, _⟩ => by show b.val = if (131072 : ℕ) = 1 then 0 else b.val; rw [if_neg (by decide)]
      | ⟨1, _⟩ => by show s.val / 2 = if 2 ^ (r + 1) = 1 then 0 else s.val / 2; exact (if_neg h2).symm
      | ⟨2, _⟩ => by show (0 : ℕ) = if (1 : ℕ) = 1 then 0 else s.val % 2; rw [if_pos rfl])).trans ?_
    exact broadcastInDim_apply _ h7 P _ (ix2 b ⟨s.val / 2, hlt⟩) (fun a => match a with
      | ⟨0, _⟩ => by show b.val = if (131072 : ℕ) = 1 then 0 else b.val; rw [if_neg (by decide)]
      | ⟨1, _⟩ => by show s.val / 2 = if 2 ^ (r + 1) = 1 then 0 else s.val / 2; exact (if_neg h2).symm)
  · refine (broadcastInDim_apply _ h12 _ _ (ix3 b 0 ⟨s.val % 2, hmod⟩) (fun a => match a with
      | ⟨0, _⟩ => by show b.val = if (131072 : ℕ) = 1 then 0 else b.val; rw [if_neg (by decide)]
      | ⟨1, _⟩ => by show (0 : ℕ) = if (1 : ℕ) = 1 then 0 else s.val / 2; rw [if_pos rfl]
      | ⟨2, _⟩ => by show s.val % 2 = if (2 : ℕ) = 1 then 0 else s.val % 2; rw [if_neg (by decide)])).trans ?_
    refine (broadcastInDim_apply _ h10 _ _ (ix2 b ⟨s.val % 2, hmod⟩) (fun a => match a with
      | ⟨0, _⟩ => by show b.val = if (131072 : ℕ) = 1 then 0 else b.val; rw [if_neg (by decide)]
      | ⟨1, _⟩ => by show s.val % 2 = if (2 : ℕ) = 1 then 0 else s.val % 2; rw [if_neg (by decide)])).trans ?_
    refine (shapeCast_apply _ h9 (ix2 b ⟨s.val % 2, hmod⟩) (ix3 b 0 ⟨s.val % 2, hmod⟩)
      (by rw [Shape.rowMajor_val_three, Shape.rowMajor_val_two]
          show (b.val * 1 + 0) * 2 + s.val % 2 = b.val * 2 + s.val % 2; omega)).trans ?_
    exact extractStridedSlice_apply _ C h8 (ix3 b 0 ⟨s.val % 2, hmod⟩) (ix3 b ⟨r + 1, hr⟩ ⟨s.val % 2, hmod⟩) (fun a => match a with
      | ⟨0, _⟩ => by show b.val = 0 + b.val; omega
      | ⟨1, _⟩ => by show r + 1 = r + 1 + 0; omega
      | ⟨2, _⟩ => by show s.val % 2 = 0 + s.val % 2; omega)

/-! ## The reference's ten tables -/

/-- After component 0: the two-state table. -/
theorem table0 (x0 : S131072x10.Idx → EReal) (b : Fin 131072) (s : Fin 2) :
    val_main_v6 (F := Ideal) x0 (ix2 b s) = loProd (fac0 x0 b) (fac1 x0 b) 0 s.val := by
  unfold val_main_v6 val_main_v5
  exact first_loProd _ _ _ _ _ b (stacked_apply x0 b 0 (by decide)) s

/-- After component 1: four states. -/
theorem table1 (x0 : S131072x10.Idx → EReal) (b : Fin 131072) (s : Fin 4) :
    val_main_v14 (F := Ideal) x0 (ix2 b s) = loProd (fac0 x0 b) (fac1 x0 b) 1 s.val := by
  unfold val_main_v14 val_main_v13 val_main_v11 val_main_v12 val_main_v7 val_main_v10 val_main_v9 val_main_v8
  exact outer_loProd (n := 2) (m := 4) 0 (by decide) rfl rfl _ _ _ _ _ _ _ _ _ _ _ b (table0 x0 b)
    (stacked_apply x0 b 1 (by decide)) s

/-- After component 2: eight states. -/
theorem table2 (x0 : S131072x10.Idx → EReal) (b : Fin 131072) (s : Fin 8) :
    val_main_v22 (F := Ideal) x0 (ix2 b s) = loProd (fac0 x0 b) (fac1 x0 b) 2 s.val := by
  unfold val_main_v22 val_main_v21 val_main_v19 val_main_v20 val_main_v15 val_main_v18 val_main_v17 val_main_v16
  exact outer_loProd (n := 4) (m := 8) 1 (by decide) rfl rfl _ _ _ _ _ _ _ _ _ _ _ b (table1 x0 b)
    (stacked_apply x0 b 2 (by decide)) s

/-- After component 3: sixteen states. -/
theorem table3 (x0 : S131072x10.Idx → EReal) (b : Fin 131072) (s : Fin 16) :
    val_main_v30 (F := Ideal) x0 (ix2 b s) = loProd (fac0 x0 b) (fac1 x0 b) 3 s.val := by
  unfold val_main_v30 val_main_v29 val_main_v27 val_main_v28 val_main_v23 val_main_v26 val_main_v25 val_main_v24
  exact outer_loProd (n := 8) (m := 16) 2 (by decide) rfl rfl _ _ _ _ _ _ _ _ _ _ _ b (table2 x0 b)
    (stacked_apply x0 b 3 (by decide)) s

/-- After component 4: 32 states. -/
theorem table4 (x0 : S131072x10.Idx → EReal) (b : Fin 131072) (s : Fin 32) :
    val_main_v38 (F := Ideal) x0 (ix2 b s) = loProd (fac0 x0 b) (fac1 x0 b) 4 s.val := by
  unfold val_main_v38 val_main_v37 val_main_v35 val_main_v36 val_main_v31 val_main_v34 val_main_v33 val_main_v32
  exact outer_loProd (n := 16) (m := 32) 3 (by decide) rfl rfl _ _ _ _ _ _ _ _ _ _ _ b (table3 x0 b)
    (stacked_apply x0 b 4 (by decide)) s

/-- After component 5: 64 states. -/
theorem table5 (x0 : S131072x10.Idx → EReal) (b : Fin 131072) (s : Fin 64) :
    val_main_v46 (F := Ideal) x0 (ix2 b s) = loProd (fac0 x0 b) (fac1 x0 b) 5 s.val := by
  unfold val_main_v46 val_main_v45 val_main_v43 val_main_v44 val_main_v39 val_main_v42 val_main_v41 val_main_v40
  exact outer_loProd (n := 32) (m := 64) 4 (by decide) rfl rfl _ _ _ _ _ _ _ _ _ _ _ b (table4 x0 b)
    (stacked_apply x0 b 5 (by decide)) s

/-- After component 6: 128 states. -/
theorem table6 (x0 : S131072x10.Idx → EReal) (b : Fin 131072) (s : Fin 128) :
    val_main_v54 (F := Ideal) x0 (ix2 b s) = loProd (fac0 x0 b) (fac1 x0 b) 6 s.val := by
  unfold val_main_v54 val_main_v53 val_main_v51 val_main_v52 val_main_v47 val_main_v50 val_main_v49 val_main_v48
  exact outer_loProd (n := 64) (m := 128) 5 (by decide) rfl rfl _ _ _ _ _ _ _ _ _ _ _ b (table5 x0 b)
    (stacked_apply x0 b 6 (by decide)) s

/-- After component 7: 256 states. -/
theorem table7 (x0 : S131072x10.Idx → EReal) (b : Fin 131072) (s : Fin 256) :
    val_main_v62 (F := Ideal) x0 (ix2 b s) = loProd (fac0 x0 b) (fac1 x0 b) 7 s.val := by
  unfold val_main_v62 val_main_v61 val_main_v59 val_main_v60 val_main_v55 val_main_v58 val_main_v57 val_main_v56
  exact outer_loProd (n := 128) (m := 256) 6 (by decide) rfl rfl _ _ _ _ _ _ _ _ _ _ _ b (table6 x0 b)
    (stacked_apply x0 b 7 (by decide)) s

/-- After component 8: 512 states. -/
theorem table8 (x0 : S131072x10.Idx → EReal) (b : Fin 131072) (s : Fin 512) :
    val_main_v70 (F := Ideal) x0 (ix2 b s) = loProd (fac0 x0 b) (fac1 x0 b) 8 s.val := by
  unfold val_main_v70 val_main_v69 val_main_v67 val_main_v68 val_main_v63 val_main_v66 val_main_v65 val_main_v64
  exact outer_loProd (n := 256) (m := 512) 7 (by decide) rfl rfl _ _ _ _ _ _ _ _ _ _ _ b (table7 x0 b)
    (stacked_apply x0 b 8 (by decide)) s

/-- After component 9: the sample's whole table of 1024 joint states. -/
theorem table9 (x0 : S131072x10.Idx → EReal) (b : Fin 131072) (s : Fin 1024) :
    val_main_v78 (F := Ideal) x0 (ix2 b s) = loProd (fac0 x0 b) (fac1 x0 b) 9 s.val := by
  unfold val_main_v78 val_main_v77 val_main_v75 val_main_v76 val_main_v71 val_main_v74 val_main_v73 val_main_v72
  exact outer_loProd (n := 512) (m := 1024) 8 (by decide) rfl rfl _ _ _ _ _ _ _ _ _ _ _ b (table8 x0 b)
    (stacked_apply x0 b 9 (by decide)) s

/-- THE SUM OVER THE SAMPLES: state `s` of the reference's first reduction is the sum over all samples of the sample's
    product of factors at `s`, the reference's way of numbering the states. -/
theorem state_sum (x0 : S131072x10.Idx → EReal) (s : Fin 1024) :
    val_main_v79 (F := Ideal) x0 (ix1 s) = ∑ b : Fin 131072, loProd (fac0 x0 b) (fac1 x0 b) 9 s.val := by
  rw [val_main_v79_apply]
  have h0 : val_main_cst_0 (F := Ideal) (Shape.Idx.first h_S_) = 0 := Ideal.ofBits_zero_f32
  rw [h0, zero_add]
  refine Finset.sum_congr rfl fun b _ => ?_
  have e : idx_main_v79 (ix1 s) b = ix2 b s := funext fun a => match a with | ⟨0, _⟩ => rfl | ⟨1, _⟩ => rfl
  rw [e]
  exact table9 x0 b s

end Cert.ReferenceIdeal.Joint

end
-- ==== Proof.Bridge.lean ====
/-
  The two programs' results are one number.

  The kernel's result is the shared tail of its state vector, whose state `j` is the sum over all samples of the sample's
  factors multiplied with component `r` chosen by binary digit `r` of `j`; the reference's result is the same tail of
  its state vector, whose state `s` is the same sum with component `r` chosen by digit `9 - r` of `s`. So the kernel's
  vector is the reference's with every state's ten digits reversed (`hiProd_eq_loProd_rev` of Proof/LibStateOrder.lean, sample by sample),
  and the tail cannot see that (`EntropyTail.tail_eq_of_rev`).
-/
import proofs.«139507_j57071525430111_1_alg».proof.Proof.KernelResult
import proofs.«139507_j57071525430111_1_alg».proof.Proof.RefRead

noncomputable section

open Idealize.ShloMosaic Idealize.ShloMosaic.TcCoe Idealize.ShloMosaic.ValueIdx Idealize.SL.Sem Cert.StateOrder
open scoped BigOperators

namespace Cert.Bridge

/-- The reference's result is the shared tail of its sums over the samples: the same operations with the same words,
    by unfolding. -/
theorem reference_result (x0 : Cert.ReferenceIdeal.S131072x10.Idx → EReal) :
    Cert.ReferenceIdeal.Read.val_main_v89 (F := Ideal) x0
      = Cert.EntropyTail.tail (F := Ideal) Cert.ReferenceIdeal.Facts₀.bcast_S_S1024
          Cert.ReferenceIdeal.Facts₀.reducesTo_S1024_S_d0 Cert.ReferenceIdeal.Facts₀.h_S_
          (Cert.ReferenceIdeal.Read.val_main_v79 (F := Ideal) x0) := rfl

/-- THE BRIDGE: the kernel's result, computed from the activity array `A` its memory holds, is the reference's result
    at `A`. -/
theorem results_agree (m : (ℓ : Loc Cert.KernelIdeal.nD Cert.KernelIdeal.τ Cert.KernelIdeal.sig) → Buf (Elt Ideal) ℓ)
    (c : Dev Cert.KernelIdeal.nD) :
    Cert.EntropyTail.tail (F := Ideal) Cert.KernelIdeal.Facts₀.bcast_S_S1024 Cert.KernelIdeal.Facts₀.reducesTo_S1024_S_d0
        Cert.KernelIdeal.Facts₀.h_S_ (Cert.KernelIdeal.Result.states m c)
      = Cert.ReferenceIdeal.Read.val_main_v89 (F := Ideal)
          (m ((c.tc : Thread Cert.KernelIdeal.nD Cert.KernelIdeal.τ).loc Cert.KernelIdeal.main_arg0)) := by
  rw [reference_result]
  refine Cert.EntropyTail.tail_eq_of_rev _ _ _ _ _ _ _ _
    (fun j => ∑ b : Fin 131072, hiProd (fac0 (m ((c.tc : Thread Cert.KernelIdeal.nD Cert.KernelIdeal.τ).loc Cert.KernelIdeal.main_arg0)) b)
      (fac1 (m ((c.tc : Thread Cert.KernelIdeal.nD Cert.KernelIdeal.τ).loc Cert.KernelIdeal.main_arg0)) b) 9 j)
    (fun s => ∑ b : Fin 131072, loProd (fac0 (m ((c.tc : Thread Cert.KernelIdeal.nD Cert.KernelIdeal.τ).loc Cert.KernelIdeal.main_arg0)) b)
      (fac1 (m ((c.tc : Thread Cert.KernelIdeal.nD Cert.KernelIdeal.τ).loc Cert.KernelIdeal.main_arg0)) b) 9 s)
    (fun k => ?_) (fun k => Cert.ReferenceIdeal.Joint.state_sum _ k) (fun j hj => ?_)
  · refine (shapeCast_apply _ _ (ix1 k) (ix2 0 k)
      (by rw [Shape.rowMajor_val_two, Shape.rowMajor_val_one]; show 0 * 1024 + k.val = k.val; omega)).trans ?_
    exact Cert.KernelIdeal.Fold.sums_apply _ k
  · exact Finset.sum_congr rfl fun b _ => hiProd_eq_loProd_rev _ _ 9 j (lt_of_lt_of_eq hj rfl)

end Cert.Bridge

end
-- ==== Proof.lean ====
/-
  The joint entropy of ten binary components over 131072 samples, computed by a kernel that sums the samples' tables of
  joint probabilities tile by tile, against the plain reference.

  Both programs form, for every sample, the table of the 1024 products of its ten components' factors (`unit - a` or `a`),
  sum the tables over the samples, and feed the 1024 sums to the same host lines (divide by the sample count, clip, logarithm
  to base 2, multiply, sum over the states, negate twice). They differ in two ways that addition cannot see. The kernel
  numbers a state with component `r` in binary digit `r`, the reference with component `r` in digit `9 - r`: the
  kernel's vector of sums is the reference's with the states renamed by reversing their ten digits (Proof/LibStateOrder.lean),
  and the host lines sum a function of each state's entry over all states (Proof/EntropyTail.lean). And the kernel adds
  the samples tile by tile into an accumulator over 64 grid points where the reference sums them at once
  (Proof/ScratchFold.lean). On the extended reals addition is commutative and associative, which is all either needs; the
  precondition is never opened.

  Proof/LaneDoubling.lean reads the kernel's block of products at an index, Proof/ScratchFold.lean its accumulator
  point by point and the output array after the run, Proof/KernelResult.lean the host lines after the region;
  Proof/RefRead.lean reads the reference's tables and its sum over the samples; Proof/Bridge.lean joins the two.
  The three frames are the generated ones; the idealization rewrote nothing, so `preserves` is trivial.
-/
import proofs.«139507_j57071525430111_1_alg».proof.Defs
import proofs.«139507_j57071525430111_1_alg».proof.Proof.Gen.Kernel
import proofs.«139507_j57071525430111_1_alg».proof.Proof.Gen.Kernel.Skeleton
import proofs.«139507_j57071525430111_1_alg».proof.Proof.Gen.Kernel.Launch
import proofs.«139507_j57071525430111_1_alg».proof.Proof.Gen.Kernel.Points
import proofs.«139507_j57071525430111_1_alg».proof.Proof.Gen.Kernel.Frame
import proofs.«139507_j57071525430111_1_alg».proof.Proof.Gen.KernelIdeal
import proofs.«139507_j57071525430111_1_alg».proof.Proof.Gen.KernelIdeal.Skeleton
import proofs.«139507_j57071525430111_1_alg».proof.Proof.Gen.KernelIdeal.Launch
import proofs.«139507_j57071525430111_1_alg».proof.Proof.Gen.KernelIdeal.Points
import proofs.«139507_j57071525430111_1_alg».proof.Proof.Gen.KernelIdeal.Frame
import proofs.«139507_j57071525430111_1_alg».proof.Proof.Gen.ReferenceIdeal
import proofs.«139507_j57071525430111_1_alg».proof.Proof.Gen.ReferenceIdeal.Run
import proofs.«139507_j57071525430111_1_alg».proof.Proof.Gen.ReferenceIdeal.Read
import proofs.«139507_j57071525430111_1_alg».proof.Proof.Gen.Pre_finite_inputs
import proofs.«139507_j57071525430111_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end, from memories that agree on the activity array, at the shared tail of the kernel's state
    vector: the kernel by its run (Proof/KernelResult.lean), the reference by its generated run and the bridge. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, hagree c]
  exact (Cert.Bridge.results_agree m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
